-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x56x56 : Shape := ⟨4, ![16, 256, 56, 56]⟩
abbrev S256x17 : Shape := ⟨2, ![256, 17]⟩
abbrev S256x2 : Shape := ⟨2, ![256, 2]⟩
abbrev S256 : Shape := ⟨1, ![256]⟩
abbrev S_ : Shape := ⟨0, ![]⟩
abbrev S256x1 : Shape := ⟨2, ![256, 1]⟩

class Facts : Prop where
  bcast_S_S16x256x56x56 : S_.BroadcastsInDim S16x256x56x56 (![] : Fin 0 → Fin S16x256x56x56.rank)
  reducesTo_S16x256x56x56_S_d0_1_2_3 : S16x256x56x56.ReducesTo [0, 1, 2, 3] S_
  h_S_ : 0 < S_.numel
  bcast_S_S256x17 : S_.BroadcastsInDim S256x17 (![] : Fin 0 → Fin S256x17.rank)
  reducesTo_S256x17_S_d0_1 : S256x17.ReducesTo [0, 1] S_
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_
  slices_S256x2_S256x1_0_1 : S256x2.Slices ![0, 1] S256x1
  shapeCasts_S256x1_S256 : S256x1.ShapeCasts S256
  slices_S256x2_S256x1_0_0 : S256x2.Slices ![0, 0] S256x1

variable [Facts]

def fn_part1 {F : FTy → Type} [FloatOps F] (main_arg2 : FVec F S256x2 .f32) (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := (extractStridedSlice S256x1 ![0, 1] · slices_S256x2_S256x1_0_1) main_arg2
  let main_v25 : FVec F S256 .f32 := shapeCast S256 main_v24 shapeCasts_S256x1_S256
  let main_v26 : FVec F S256x1 .f32 := (extractStridedSlice S256x1 ![0, 0] · slices_S256x2_S256x1_0_0) main_arg2
  let main_v27 : FVec F S256 .f32 := shapeCast S256 main_v26 shapeCasts_S256x1_S256
  let main_v28 : FVec F S256 .f32 := subf main_v25 main_v27
  let main_cst_8 : FVec F S_ .f32 := constant S_ .f32 0x00000000#32
  let main_v29 : FVec F S256 .f32 := broadcastInDim S256 ![] bcast_S_S256 main_cst_8
  let main_v30 : IVec S256 1 := cmpf .une main_v28 main_v29
  let main_c_9 : IVec S_ 1 := constantI S_ 1 1#1
  let main_v31 : IVec S_ 1 := (fun x v => Host.reduce IntOp.andi x v reducesTo_S256_S_d0 h_S_) main_v30 main_c_9
  let main_v32 : IVec S_ 1 := andi main_v23 main_v31
  main_v32

def fn {F : FTy → Type} [FloatOps F] (main_arg0 : FVec F S16x256x56x56 .f32) (main_arg1 : FVec F S256x17 .f32) (main_arg2 : FVec F S256x2 .f32) (main_arg3 : FVec F S256 .f32) (main_arg4 : FVec F S256 .f32) : IVec S_ 1 :=
  let main_v0 : FVec F S16x256x56x56 .f32 := Host.absf main_arg0
  let main_cst : FVec F S_ .f32 := constant S_ .f32 0x7F800000#32
  let main_v1 : FVec F S16x256x56x56 .f32 := broadcastInDim S16x256x56x56 ![] bcast_S_S16x256x56x56 main_cst
  let main_v2 : IVec S16x256x56x56 1 := cmpf .olt main_v0 main_v1
  let main_c : IVec S_ 1 := constantI S_ 1 1#1
  let main_v3 : IVec S_ 1 := (fun x v => Host.reduce IntOp.andi x v reducesTo_S16x256x56x56_S_d0_1_2_3 h_S_) main_v2 main_c
  let main_v4 : FVec F S256x17 .f32 := Host.absf main_arg1
  let main_cst_0 : FVec F S_ .f32 := constant S_ .f32 0x7F800000#32
  let main_v5 : FVec F S256x17 .f32 := broadcastInDim S256x17 ![] bcast_S_S256x17 main_cst_0
  let main_v6 : IVec S256x17 1 := cmpf .olt main_v4 main_v5
  let main_c_1 : IVec S_ 1 := constantI S_ 1 1#1
  let main_v7 : IVec S_ 1 := (fun x v => Host.reduce IntOp.andi x v reducesTo_S256x17_S_d0_1 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg4 main_v13 main_v16
-- ==== Kernel.lean ====
abbrev S16x256x56x56 : Shape := ⟨4, ![16, 256, 56, 56]⟩
abbrev S256x17 : Shape := ⟨2, ![256, 17]⟩
abbrev S256x2 : Shape := ⟨2, ![256, 2]⟩
abbrev S256 : Shape := ⟨1, ![256]⟩
abbrev S256x1 : Shape := ⟨2, ![256, 1]⟩
abbrev S256x16 : Shape := ⟨2, ![256, 16]⟩
abbrev S256x18 : Shape := ⟨2, ![256, 18]⟩
abbrev S_ : Shape := ⟨0, ![]⟩
abbrev S16x256x3136 : Shape := ⟨3, ![16, 256, 3136]⟩
abbrev S128x18 : Shape := ⟨2, ![128, 18]⟩
abbrev S128x2 : Shape := ⟨2, ![128, 2]⟩
abbrev S1x128x3136 : Shape := ⟨3, ![1, 128, 3136]⟩
abbrev S128x3136 : Shape := ⟨2, ![128, 3136]⟩
abbrev S128x1 : Shape := ⟨2, ![128, 1]⟩

abbrev nBuf : Space → Nat
  | .hbm => 37
  | .vmem => 10
  | .smem => 0
  | _ => 0

abbrev bufTy : (tb : Table) → Fin (tcTables nBuf tb) → BufTy
  | .hbm, ⟨0, _⟩ => ⟨S16x256x56x56, .f32⟩
  | .hbm, ⟨1, _⟩ => ⟨S256x17, .f32⟩
  | .hbm, ⟨2, _⟩ => ⟨S256x2, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S256, .f32⟩
  | .hbm, ⟨10, _⟩ => ⟨S256x16, .f32⟩
  | .hbm, ⟨11, _⟩ => ⟨S256x16, .f32⟩
  | .hbm, ⟨12, _⟩ => ⟨S256x16, .f32⟩
  | .hbm, ⟨13, _⟩ => ⟨S256x1, .f32⟩
  | .hbm, ⟨14, _⟩ => ⟨S256x16, .f32⟩
  | .hbm, ⟨15, _⟩ => ⟨S256x16, .f32⟩
  | .hbm, ⟨16, _⟩ => ⟨S256x1, .f32⟩
  | .hbm, ⟨17, _⟩ => ⟨S256x1, .f32⟩
  | .hbm, ⟨18, _⟩ => ⟨S256x18, .f32⟩
  | .hbm, ⟨19, _⟩ => ⟨S256, .f32⟩
  | .hbm, ⟨20, _⟩ => ⟨S256x1, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256x1, .f32⟩
  | .hbm, ⟨25, _⟩ => ⟨S256x18, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256x1, .f32⟩
  | .hbm, ⟨32, _⟩ => ⟨S256x1, .f32⟩
  | .hbm, ⟨33, _⟩ => ⟨S256x2, .f32⟩
  | .hbm, ⟨34, _⟩ => ⟨S16x256x3136, .f32⟩
  | .hbm, ⟨35, _⟩ => ⟨S16x256x3136, .f32⟩
  | .hbm, ⟨36, _⟩ => ⟨S16x256x56x56, .f32⟩
  | .local _ .vmem, ⟨0, _⟩ => ⟨S128x18, .f32⟩
  | .local _ .vmem, ⟨1, _⟩ => ⟨S128x18, .f32⟩
  | .local _ .vmem, ⟨2, _⟩ => ⟨S128x18, .f32⟩
  | .local _ .vmem, ⟨3, _⟩ => ⟨S128x18, .f32⟩
  | .local _ .vmem, ⟨4, _⟩ => ⟨S128x2, .f32⟩
  | .local _ .vmem, ⟨5, _⟩ => ⟨S128x2, .f32⟩
  | .local _ .vmem, ⟨6, _⟩ => ⟨S1x128x3136, .f32⟩
  | .local _ .vmem, ⟨7, _⟩ => ⟨S1x128x3136, .f32⟩
  | .local _ .vmem, ⟨8, _⟩ => ⟨S1x128x3136, .f32⟩
  | .local _ .vmem, ⟨9, _⟩ => ⟨S1x128x3136, .f32⟩
  | _, _ => ⟨S16x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x3136 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S256x2_S256x1_0_0 : S256x2.Slices ![0, 0] S256x1
  shapeCasts_S256x1_S256 : S256x1.ShapeCasts S256
  slices_S256x2_S256x1_0_1 : S256x2.Slices ![0, 1] S256x1
  slices_S256x17_S256x16_0_1 : S256x17.Slices ![0, 1] S256x16
  slices_S256x17_S256x16_0_0 : S256x17.Slices ![0, 0] S256x16
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  concatenates_S256x1_S256x16_S256x1_S256x18_d1 : Shape.Concatenates [S256x1, S256x16, S256x1] S256x18 1
  slices_S256x17_S256x1_0_0 : S256x17.Slices ![0, 0] S256x1
  concatenates_S256x1_S256x17_S256x18_d1 : Shape.Concatenates [S256x1, S256x17] S256x18 1
  bcast_S_S256 : S_.BroadcastsInDim S256 (![] : Fin 0 → Fin S256.rank)
  concatenates_S256x1_S256x1_S256x2_d1 : Shape.Concatenates [S256x1, S256x1] S256x2 1
  shapeCasts_S16x256x56x56_S16x256x3136 : S16x256x56x56.ShapeCasts S16x256x3136
  inb_S1x128x3136_S1x128x3136_0_0_0 : ∀ a, (![0, 0, 0] : Fin 3 → Nat) a + S1x128x3136.size a ≤ S1x128x3136.size a
  h_S1x128x3136 : 0 < S1x128x3136.numel
  shapeCasts_S1x128x3136_S128x3136 : S1x128x3136.ShapeCasts S128x3136
  inb_S128x2_S128x1_0_0 : ∀ a, (![0, 0] : Fin 2 → Nat) a + S128x1.size a ≤ S128x2.size a
  h_S128x1 : 0 < S128x1.numel
  shapeCasts_S128x1_S128x1 : S128x1.ShapeCasts S128x1
  inb_S128x2_S128x1_0_1 : ∀ a, (![0, 1] : Fin 2 → Nat) a + S128x1.size a ≤ S128x2.size a
  broadcasts_S128x1_S128x3136 : S128x1.Broadcasts S128x3136
  inb_S128x18_S128x18_0_0 : ∀ a, (![0, 0] : Fin 2 → Nat) a + S128x18.size a ≤ S128x18.size a
  h_S128x18 : 0 < S128x18.numel
  shapeCasts_S128x18_S128x18 : S128x18.ShapeCasts S128x18
  slices_S128x18_o0_0_S128x1 : S128x18.Slices ![0, 0] S128x1
  slices_S128x18_o0_1_S128x1 : S128x18.Slices ![0, 1] S128x1
  slices_S128x18_o0_2_S128x1 : S128x18.Slices ![0, 2] S128x1
  slices_S128x18_o0_3_S128x1 : S128x18.Slices ![0, 3] S128x1
  slices_S128x18_o0_4_S128x1 : S128x18.Slices ![0, 4] S128x1
  slices_S128x18_o0_5_S128x1 : S128x18.Slices ![0, 5] S128x1
  slices_S128x18_o0_6_S128x1 : S128x18.Slices ![0, 6] S128x1
  slices_S128x18_o0_7_S128x1 : S128x18.Slices ![0, 7] S128x1
  slices_S128x18_o0_8_S128x1 : S128x18.Slices ![0, 8] S128x1
  slices_S128x18_o0_9_S128x1 : S128x18.Slices ![0, 9] S128x1
  slices_S128x18_o0_10_S128x1 : S128x18.Slices ![0, 10] S128x1
  slices_S128x18_o0_11_S128x1 : S128x18.Slices ![0, 11] S128x1
  slices_S128x18_o0_12_S128x1 : S128x18.Slices ![0, 12] S128x1
  slices_S128x18_o0_13_S128x1 : S128x18.Slices ![0, 13] S128x1
  slices_S128x18_o0_14_S128x1 : S128x18.Slices ![0, 14] S128x1
  slices_S128x18_o0_15_S128x1 : S128x18.Slices ![0, 15] S128x1
  slices_S128x18_o0_16_S128x1 : S128x18.Slices ![0, 16] S128x1
  slices_S128x18_o0_17_S128x1 : S128x18.Slices ![0, 17] S128x1
  shapeCasts_S128x3136_S1x128x3136 : S128x3136.ShapeCasts S1x128x3136
  shapeCasts_S16x256x3136_S16x256x56x56 : S16x256x3136.ShapeCasts S16x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x18.size a ≤ S256x18.size a
  hwx0_0 : ∀ i : grid0.Coords, EltTy.bits .f32 = 32 ∨ (Rect.block (s := S256x18) S128x18.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x18.size a ≤ S256x18.size a
  hwx0_1 : ∀ i : grid0.Coords, EltTy.bits .f32 = 32 ∨ (Rect.block (s := S256x18) S128x18.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2.size a ≤ S256x2.size a
  hwx0_2 : ∀ i : grid0.Coords, EltTy.bits .f32 = 32 ∨ (Rect.block (s := S256x2) S128x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x3136.size a ≤ S16x256x3136.size a
  hwx0_3 : ∀ i : grid0.Coords, EltTy.bits .f32 = 32 ∨ (Rect.block (s := S16x256x3136) S1x128x3136.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x3136.size a ≤ S16x256x3136.size a
  hwx0_4 : ∀ i : grid0.Coords, EltTy.bits .f32 = 32 ∨ (Rect.block (s := S16x256x3136) S1x128x3136.size (cc0_transform_4 i) (hinb0_4 i)).WholeWords (EltTy.packing .f32)

variable [Facts₀]

abbrev win0_0 : Pipeline.Window sig grid0 :=
  Pipeline.Window.ofSpec (Memref.whole main_v20) S128x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x128x3136.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128x3136.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x256x56x56 : Shape := ⟨4, ![16, 256, 56, 56]⟩
abbrev S256x17 : Shape := ⟨2, ![256, 17]⟩
abbrev S256x2 : Shape := ⟨2, ![256, 2]⟩
abbrev S256 : Shape := ⟨1, ![256]⟩
abbrev S256x1 : Shape := ⟨2, ![256, 1]⟩
abbrev S256x16 : Shape := ⟨2, ![256, 16]⟩
abbrev S256x18 : Shape := ⟨2, ![256, 18]⟩
abbrev S16x56x56x256 : Shape := ⟨4, ![16, 56, 56, 256]⟩
abbrev S1x1x1x256 : Shape := ⟨4, ![1, 1, 1, 256]⟩
abbrev S_ : Shape := ⟨0, ![]⟩
abbrev S256x16x56x56 : Shape := ⟨4, ![256, 16, 56, 56]⟩
abbrev S256x50176 : Shape := ⟨2, ![256, 50176]⟩
abbrev S256x50176x1 : Shape := ⟨3, ![256, 50176, 1]⟩
abbrev S1 : Shape := ⟨1, ![1]⟩
abbrev S1x1x1 : Shape := ⟨3, ![1, 1, 1]⟩

abbrev nBuf : Space → Nat
  | .hbm => 104
  | .vmem => 0
  | .smem => 0
  | _ => 0

abbrev bufTy : (tb : Table) → Fin (tcTables nBuf tb) → BufTy
  | .hbm, ⟨0, _⟩ => ⟨S16x256x56x56, .f32⟩
  | .hbm, ⟨1, _⟩ => ⟨S256x17, .f32⟩
  | .hbm, ⟨2, _⟩ => ⟨S256x2, .f32⟩
  | .hbm, ⟨3, _⟩ => ⟨S256, .f32⟩
  | .hbm, ⟨4, _⟩ => ⟨S256, .f32⟩
  | .hbm, ⟨5, _⟩ => ⟨S256x1, .f32⟩
  | .hbm, ⟨6, _⟩ => ⟨S256, .f32⟩
  | .hbm, ⟨7, _⟩ => ⟨S256x1, .f32⟩
  | .hbm, ⟨8, _⟩ => ⟨S256, .f32⟩
  | .hbm, ⟨9, _⟩ => ⟨S256, .f32⟩
  | .hbm, ⟨10, _⟩ => ⟨S256x16, .f32⟩
  | .hbm, ⟨11, _⟩ => ⟨S256x16, .f32⟩
  | .hbm, ⟨12, _⟩ => ⟨S256x16, .f32⟩
  | .hbm, ⟨13, _⟩ => ⟨S256x1, .f32⟩
  | .hbm, ⟨14, _⟩ => ⟨S256x16, .f32⟩
  | .hbm, ⟨15, _⟩ => ⟨S256x16, .f32⟩
  | .hbm, ⟨16, _⟩ => ⟨S256x1, .f32⟩
  | .hbm, ⟨17, _⟩ => ⟨S256x1, .f32⟩
  | .hbm, ⟨18, _⟩ => ⟨S256x18, .f32⟩
  | .hbm, ⟨19, _⟩ => ⟨S256, .f32⟩
  | .hbm, ⟨20, _⟩ => ⟨S16x56x56x256, .f32⟩
  | .hbm, ⟨21, _⟩ => ⟨S1x1x1x256, .f32⟩
  | .hbm, ⟨22, _⟩ => ⟨S16x56x56x256, .f32⟩
  | .hbm, ⟨23, _⟩ => ⟨S16x56x56x256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S1x1x1x256, .f32⟩
  | .hbm, ⟨28, _⟩ => ⟨S16x56x56x256, .f32⟩
  | .hbm, ⟨29, _⟩ => ⟨S16x56x56x256, .f32⟩
  | .hbm, ⟨30, _⟩ => ⟨S256x16x56x56, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S256x16x56x56, .f32⟩
  | .hbm, ⟨35, _⟩ => ⟨S256x16x56x56, .f32⟩
  | .hbm, ⟨36, _⟩ => ⟨S_, .f32⟩
  | .hbm, ⟨37, _⟩ => ⟨S256x16x56x56, .f32⟩
  | .hbm, ⟨38, _⟩ => ⟨S256x16x56x56, .f32⟩
  | .hbm, ⟨39, _⟩ => ⟨S_, .f32⟩
  | .hbm, ⟨40, _⟩ => ⟨S256x16x56x56, .f32⟩
  | .hbm, ⟨41, _⟩ => ⟨S256x16x56x56, .f32⟩
  | .hbm, ⟨42, _⟩ => ⟨S256x16x56x56, .f32⟩
  | .hbm, ⟨43, _⟩ => ⟨S_, .f32⟩
  | .hbm, ⟨44, _⟩ => ⟨S256x16x56x56, .f32⟩
  | .hbm, ⟨45, _⟩ => ⟨S256x16x56x56, .f32⟩
  | .hbm, ⟨46, _⟩ => ⟨S256x16x56x56, .f32⟩
  | .hbm, ⟨47, _⟩ => ⟨S256x16x56x56, .i32⟩
  | .hbm, ⟨48, _⟩ => ⟨S256x50176, .i32⟩
  | .hbm, ⟨49, _⟩ => ⟨S256x1, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S256x1, .f32⟩
  | .hbm, ⟨54, _⟩ => ⟨S256x18, .f32⟩
  | .hbm, ⟨55, _⟩ => ⟨S_, .i32⟩
  | .hbm, ⟨56, _⟩ => ⟨S256x50176, .i32⟩
  | .hbm, ⟨57, _⟩ => ⟨S256x50176, .i1⟩
  | .hbm, ⟨58, _⟩ => ⟨S_, .i32⟩
  | .hbm, ⟨59, _⟩ => ⟨S256x50176, .i32⟩
  | .hbm, ⟨60, _⟩ => ⟨S256x50176, .i32⟩
  | .hbm, ⟨61, _⟩ => ⟨S256x50176, .i32⟩
  | .hbm, ⟨62, _⟩ => ⟨S256x50176x1, .i32⟩
  | .hbm, ⟨63, _⟩ => ⟨S1, .i32⟩
  | .hbm, ⟨64, _⟩ => ⟨S_, .i32⟩
  | .hbm, ⟨65, _⟩ => ⟨S256x50176x1, .i32⟩
  | .hbm, ⟨66, _⟩ => ⟨S256x50176x1, .i1⟩
  | .hbm, ⟨67, _⟩ => ⟨S1x1x1, .i32⟩
  | .hbm, ⟨68, _⟩ => ⟨S256x50176x1, .i32⟩
  | .hbm, ⟨69, _⟩ => ⟨S256x50176x1, .i1⟩
  | .hbm, ⟨70, _⟩ => ⟨S256x50176x1, .i1⟩
  | .hbm, ⟨71, _⟩ => ⟨S_, .i1⟩
  | .hbm, ⟨72, _⟩ => ⟨S256x50176, .i1⟩
  | .hbm, ⟨73, _⟩ => ⟨S256x50176, .f32⟩
  | .hbm, ⟨74, _⟩ => ⟨S_, .f32⟩
  | .hbm, ⟨75, _⟩ => ⟨S256x50176, .f32⟩
  | .hbm, ⟨76, _⟩ => ⟨S256x50176, .f32⟩
  | .hbm, ⟨77, _⟩ => ⟨S_, .i32⟩
  | .hbm, ⟨78, _⟩ => ⟨S256x50176, .i32⟩
  | .hbm, ⟨79, _⟩ => ⟨S256x50176, .i1⟩
  | .hbm, ⟨80, _⟩ => ⟨S_, .i32⟩
  | .hbm, ⟨81, _⟩ => ⟨S256x50176, .i32⟩
  | .hbm, ⟨82, _⟩ => ⟨S256x50176, .i32⟩
  | .hbm, ⟨83, _⟩ => ⟨S256x50176, .i32⟩
  | .hbm, ⟨84, _⟩ => ⟨S256x50176x1, .i32⟩
  | .hbm, ⟨85, _⟩ => ⟨S1, .i32⟩
  | .hbm, ⟨86, _⟩ => ⟨S_, .i32⟩
  | .hbm, ⟨87, _⟩ => ⟨S256x50176x1, .i32⟩
  | .hbm, ⟨88, _⟩ => ⟨S256x50176x1, .i1⟩
  | .hbm, ⟨89, _⟩ => ⟨S1x1x1, .i32⟩
  | .hbm, ⟨90, _⟩ => ⟨S256x50176x1, .i32⟩
  | .hbm, ⟨91, _⟩ => ⟨S256x50176x1, .i1⟩
  | .hbm, ⟨92, _⟩ => ⟨S256x50176x1, .i1⟩
  | .hbm, ⟨93, _⟩ => ⟨S_, .i1⟩
  | .hbm, ⟨94, _⟩ => ⟨S256x50176, .i1⟩
  | .hbm, ⟨95, _⟩ => ⟨S256x50176, .f32⟩
  | .hbm, ⟨96, _⟩ => ⟨S_, .f32⟩
  | .hbm, ⟨97, _⟩ => ⟨S256x50176, .f32⟩
  | .hbm, ⟨98, _⟩ => ⟨S256x50176, .f32⟩
  | .hbm, ⟨99, _⟩ => ⟨S256x16x56x56, .f32⟩
  | .hbm, ⟨100, _⟩ => ⟨S256x16x56x56, .f32⟩
  | .hbm, ⟨101, _⟩ => ⟨S256x16x56x56, .f32⟩
  | .hbm, ⟨102, _⟩ => ⟨S256x16x56x56, .f32⟩
  | .hbm, ⟨103, _⟩ => ⟨S16x256x56x56, .f32⟩
  | _, _ => ⟨S16x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_cst_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v40 : Ref sig .tc := ⟨.hbm, 76, rfl⟩
abbrev main_call2_c : Ref sig .tc := ⟨.hbm, 77, rfl⟩
abbrev main_call2_v0 : Ref sig .tc := ⟨.hbm, 78, rfl⟩
abbrev main_call2_v1 : Ref sig .tc := ⟨.hbm, 79, rfl⟩
abbrev main_call2_c_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_c_1 : Ref sig .tc := ⟨.hbm, 85, rfl⟩
abbrev main_call2_c_2 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_c_3 : Ref sig .tc := ⟨.hbm, 93, rfl⟩
abbrev main_call2_v12 : Ref sig .tc := ⟨.hbm, 94, rfl⟩
abbrev main_call2_v13 : Ref sig .tc := ⟨.hbm, 95, rfl⟩
abbrev main_call2_cst : Ref sig .tc := ⟨.hbm, 96, rfl⟩
abbrev main_call2_v14 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩

abbrev nD : Nat := 1
abbrev τ : Topo := Topo.v7x

variable {F : FTy → Type} [FloatOps F]

class Facts₀ : Prop where
  slices_S256x2_S256x1_0_0 : S256x2.Slices ![0, 0] S256x1
  shapeCasts_S256x1_S256 : S256x1.ShapeCasts S256
  slices_S256x2_S256x1_0_1 : S256x2.Slices ![0, 1] S256x1
  slices_S256x17_S256x16_0_1 : S256x17.Slices ![0, 1] S256x16
  slices_S256x17_S256x16_0_0 : S256x17.Slices ![0, 0] S256x16
  bcast_S256_S256x1_0 : S256.BroadcastsInDim S256x1 (![0] : Fin 1 → Fin S256x1.rank)
  bcast_S256x1_S256x16_0_1 : S256x1.BroadcastsInDim S256x16 (![0, 1] : Fin 2 → Fin S256x16.rank)
  concatenates_S256x1_S256x16_S256x1_S256x18_d1 : Shape.Concatenates [S256x1, S256x16, S256x1] S256x18 1
  transposes_S16x256x56x56_S16x56x56x256_0_2_3_1 : S16x256x56x56.Transposes [0, 2, 3, 1] S16x56x56x256
  bcast_S256_S1x1x1x256_3 : S256.BroadcastsInDim S1x1x1x256 (![3] : Fin 1 → Fin S1x1x1x256.rank)
  bcast_S1x1x1x256_S16x56x56x256_0_1_2_3 : S1x1x1x256.BroadcastsInDim S16x56x56x256 (![0, 1, 2, 3] : Fin 4 → Fin S16x56x56x256.rank)
  bcast_S_S256 : S_.BroadcastsInDim S256 (![] : Fin 0 → Fin S256.rank)
  transposes_S16x56x56x256_S256x16x56x56_3_0_1_2 : S16x56x56x256.Transposes [3, 0, 1, 2] S256x16x56x56
  bcast_S_S256x16x56x56 : S_.BroadcastsInDim S256x16x56x56 (![] : Fin 0 → Fin S256x16x56x56.rank)
  shapeCasts_S256x16x56x56_S256x50176 : S256x16x56x56.ShapeCasts S256x50176
  slices_S256x17_S256x1_0_0 : S256x17.Slices ![0, 0] S256x1
  concatenates_S256x1_S256x17_S256x18_d1 : Shape.Concatenates [S256x1, S256x17] S256x18 1
  bcast_S_S256x50176 : S_.BroadcastsInDim S256x50176 (![] : Fin 0 → Fin S256x50176.rank)
  shapeCasts_S256x50176_S256x50176x1 : S256x50176.ShapeCasts S256x50176x1
  bcast_S_S256x50176x1 : S_.BroadcastsInDim S256x50176x1 (![] : Fin 0 → Fin S256x50176x1.rank)
  bcast_S1_S1x1x1_2 : S1.BroadcastsInDim S1x1x1 (![2] : Fin 1 → Fin S1x1x1.rank)
  bcast_S1x1x1_S256x50176x1_0_1_2 : S1x1x1.BroadcastsInDim S256x50176x1 (![0, 1, 2] : Fin 3 → Fin S256x50176x1.rank)
  reducesTo_S256x50176x1_S256x50176_d2 : S256x50176x1.ReducesTo [2] S256x50176
  h_S_ : 0 < S_.numel
  shapeCasts_S256x50176_S256x16x56x56 : S256x50176.ShapeCasts S256x16x56x56
  transposes_S256x16x56x56_S16x256x56x56_1_0_2_3 : S256x16x56x56.Transposes [1, 0, 2, 3] S16x256x56x56
  gather_S256x18_S256x50176x1_S256x50176_n_1_0_0_1_2_11_wf : GatherDims.WF S256x18 S256x50176x1 S256x50176 [] [1] [0] [1] [0] 2 ![1, 1]

variable [Facts₀]

def gather_S256x18_S256x50176x1_S256x50176_n_1_0_0_1_2_11 : GatherDims S256x18 S256x50176x1 S256x50176 where
  offsetDims := []
  collapsedSliceDims := [1]
  operandBatchingDims := [0]
  startIndicesBatchingDims := [0]
  startIndexMap := [1]
  indexVectorDim := 2
  sliceSizes := ![1, 1]
  wf := gather_S256x18_S256x50176x1_S256x50176_n_1_0_0_1_2_11_wf

class Facts : Prop extends Facts₀ where

variable [Facts]
-- ==== Proof.K.Data.lean ====
/-
  The kernel program: what its one pipelined region is run against.

  @main computes, channel by channel, a table of 18 left points, a table of 18 slopes and a two-column table
  (reciprocal of the region length, offset), reshapes the input to [16, 256, 3136], and launches one region on a
  16 × 2 grid: point (b, h) sees rows 128h … 128h + 127 of the three tables and block (b, h) — 128 channels by 3136
  positions — of the input, and writes block (b, h) of the result. This module names the contents the region finds
  (`V`), each window's block at a point (`iblk`), what the body stores into the result's block as a function of the
  four input blocks (`body0`, `out0_4`: the body's loads, its arithmetic as the skeleton names it, one store of the
  whole block), and the proof data of the pipeline (`dats`). Stated for every float instance.
-/
import proofs.«423696_j36790689857763_3_alg».proof.Proof.Gen.Kernel.Launch
import proofs.«423696_j36790689857763_3_alg».proof.Proof.Gen.Kernel.Skeleton
import proofs.«423696_j36790689857763_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents the region finds -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The whole [1, 128, 3136] block: the input's load and the result's store. -/
abbrev rX : Rect S1x128x3136 := Rect.unit (s := S1x128x3136) ![0, 0, 0] S1x128x3136.size inb_S1x128x3136_S1x128x3136_0_0_0
/-- Column 0 of the two-column table's block: the reciprocals. -/
abbrev rA0 : Rect S128x2 := Rect.unit (s := S128x2) ![0, 0] S128x1.size inb_S128x2_S128x1_0_0
/-- Column 1 of it: the offsets. -/
abbrev rA1 : Rect S128x2 := Rect.unit (s := S128x2) ![0, 1] S128x1.size inb_S128x2_S128x1_0_1
/-- A whole [128, 18] table block. -/
abbrev rT : Rect S128x18 := Rect.unit (s := S128x18) ![0, 0] S128x18.size inb_S128x18_S128x18_0_0

/-- The value the body stores, from the four input blocks (left points, slopes, reciprocal and offset, input): the
    loads through their rectangles, then the skeleton's payloads in the order the body's three parts compute them. -/
def body0 (xfp xsl : Vec F S128x18 .f32) (xaux : Vec F S128x2 .f32) (xx : Vec F S1x128x3136 .f32) : FVec F S1x128x3136 .f32 :=
  k0_pay1 (k0_pay4 (View.ld xx rX) (View.ld xaux rA0) (View.ld xaux rA1)) (k0_pay5 (View.ld xx rX) (View.ld xaux rA0) (View.ld xaux rA1))
    (k0_pay6 (View.ld xfp rT)) (k0_pay7 (View.ld xsl rT))
    (k0_pay14 (k0_pay4 (View.ld xx rX) (View.ld xaux rA0) (View.ld xaux rA1)) (k0_pay5 (View.ld xx rX) (View.ld xaux rA0) (View.ld xaux rA1))
      (k0_pay6 (View.ld xfp rT)) (k0_pay7 (View.ld xsl rT))
      (k0_pay11 (k0_pay4 (View.ld xx rX) (View.ld xaux rA0) (View.ld xaux rA1)) (k0_pay5 (View.ld xx rX) (View.ld xaux rA0) (View.ld xaux rA1))
        (k0_pay6 (View.ld xfp rT)) (k0_pay7 (View.ld xsl rT))
        (k0_pay8 (View.ld xx rX) (View.ld xaux rA0) (View.ld xaux rA1) (View.ld xfp rT) (View.ld xsl rT))
        (k0_pay9 (View.ld xfp rT)) (k0_pay10 (View.ld xsl rT)))
      (k0_pay12 (k0_pay6 (View.ld xfp rT))) (k0_pay13 (k0_pay7 (View.ld xsl rT))))
    (k0_pay15 (k0_pay6 (View.ld xfp rT))) (k0_pay16 (k0_pay7 (View.ld xsl rT)))

/-- The result window's staging buffer after the body: its one store, of the whole block. -/
def out0_4 (xfp xsl : Vec F S128x18 .f32) (xaux : Vec F S128x2 .f32) (xx : Vec F S1x128x3136 .f32) : Vec F S1x128x3136 .f32 :=
  View.canon [⟨rX, body0 xfp xsl xaux xx⟩]

/-! ## The pipeline's proof data -/

/-- On core `c`: the arrays as the region finds them; after the body at point `t` each input's buffer at its block and
    the result's at `out0_4` of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

end Cert.Kernel.Fr

end
-- ==== Proof.K.Frame.lean ====
/-
  The frame of the kernel program: every weakly fair execution of @main terminates, and its five argument
  arrays end as launched.

  @main is thirty host operations, one pipelined region on a 16 × 2 grid, and one host operation. Each host
  operation writes its own result buffer and nothing else, so none writes an argument array; the region writes only
  its result window's array; and no argument array is an array of a window (the input reaches the region reshaped,
  as a buffer of its own). So each argument array is untouched from the launch to the end.

  The region's run is the library's, given the body's triple at a generic grid point: on the five staging memrefs —
  the four inputs' holding their blocks, the result's holding anything — the body loads the inputs through their
  rectangles, computes, loads the result's buffer once without using what it read, and stores the whole
  [1, 128, 3136] block once. One store of the whole block covers the buffer, so the buffer ends at the canonical
  contents of that one piece, `out0_4` of the four input blocks, whatever it held before. Stated for every float
  instance.
-/
import proofs.«423696_j36790689857763_3_alg».proof.Proof.K.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region allocate nothing, -/
theorem hostOps0_fresh : (hostOps0 : List (HloOp τ sig (Elt F))).Forall fun op => op.fresh = ∅ := by
  simp only [List.Forall]; repeat' constructor
/-- nor does the one after it. -/
theorem hostOps1_fresh : (hostOps1 : List (HloOp τ sig (Elt F))).Forall fun op => op.fresh = ∅ := by
  simp only [List.Forall]; repeat' constructor

/-- @main is the host operations before the region, the region, and the host operation after it: it reduces to the
    region, entered at the contents `V`, continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped TensorCore buffers only: each is an array of a window or a buffer
    the region bypasses. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes `main_v30`, which is no array of a window. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays, at the region's entry and at the end -/

set_option maxHeartbeats 1000000 in
/-- No host operation before the region writes `main_arg0` (each writes its own result buffer, `main_v0` … `main_v28` or
    the constant's): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg0` is none: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- No host operation before the region writes `main_arg1` (each writes its own result buffer, `main_v0` … `main_v28` or
    the constant's): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg1` is none: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
/-- No host operation before the region writes `main_arg2` (each writes its own result buffer, `main_v0` … `main_v28` or
    the constant's): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg2` is none: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- No host operation before the region writes `main_arg3` (each writes its own result buffer, `main_v0` … `main_v28` or
    the constant's): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg3` is none: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 1000000 in
/-- No host operation before the region writes `main_arg4` (each writes its own result buffer, `main_v0` … `main_v28` or
    the constant's): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg4` is none: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The input windows' staging buffers hold their blocks

An input window is fetched at every point, uncut and never idle, and the body leaves its buffer as it found it: so at
every point its current staging buffer holds its block of the array, for any proof data whose array is the
region-entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the library's frame post — every unscoped buffer that is no window's array ends as
    the operation after the region leaves it — read at the five argument arrays is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

/-! ## The body's triple -/

/-- The one store is of the whole block, so it covers the result's buffer. -/
theorem cover0_4 (p0 : Vec F S1x128x3136 .f32) (y : S1x128x3136.Idx) :
    ∃ pc ∈ ([⟨rX, p0⟩] : List (View.Piece (Elt F) S1x128x3136 .f32)), y ∈ pc.1.set :=
  View.cover_of_tiled [⟨rX, p0⟩] S1x128x3136.size (by rfl) y

set_option maxHeartbeats 1000000 in
/-- The kernel body on whole staging memrefs, the four inputs' at read contents `x0 … x3` and the result's at anything,
    runs to the continuation holding the inputs' as they were and the result's at `out0_4 x0 x1 x2 x3`: the three parts
    load the inputs and return pure values of them, the load of the result's buffer changes nothing, and the one store
    of the whole block leaves the canonical contents of that piece. -/
theorem sound_kernel (c : Dev nD) (E : Set ℕ) (i : grid0.Coords)
    (arg2 : Memref sig .tc .vmem S128x18 .f32) (harg2 : arg2.IsWhole) (arg3 : Memref sig .tc .vmem S128x18 .f32) (harg3 : arg3.IsWhole)
    (arg4 : Memref sig .tc .vmem S128x2 .f32) (harg4 : arg4.IsWhole) (arg5 : Memref sig .tc .vmem S1x128x3136 .f32) (harg5 : arg5.IsWhole)
    (arg6 : Memref sig .tc .vmem S1x128x3136 .f32) (harg6 : arg6.IsWhole)
    (x0 x1 : Vec F S128x18 .f32) (x2 : Vec F S128x2 .f32) (x3 : Vec F S1x128x3136 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__lambda_ i arg2 harg2 arg3 harg3 arg4 harg4 arg5 harg5 arg6 harg6) K := by
  simp only [cc0__lambda__eq_skeleton]; unfold cc0__lambda__skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  unfold out0_4 body0
  exact View.read_writes_eq_canon _ _ _ (cover0_4 _)

/-! ## The body obligation, at a generic point -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of @main on the TensorCores
    terminates, and every final state has every array of the pipeline at what the library computes from the proof data
    and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: @main runs, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.KI.Data.lean ====
/-
  The idealized kernel program: what its one pipelined region is run against.

  @main computes, channel by channel, a table of 18 left points, a table of 18 slopes and a two-column table
  (reciprocal of the region length, offset), reshapes the input to [16, 256, 3136], and launches one region on a
  16 × 2 grid: point (b, h) sees rows 128h … 128h + 127 of the three tables and block (b, h) — 128 channels by 3136
  positions — of the input, and writes block (b, h) of the result. This module names the contents the region finds
  (`V`), each window's block at a point (`iblk`), what the body stores into the result's block as a function of the
  four input blocks (`body0`, `out0_4`: the body's loads, its arithmetic as the skeleton names it, one store of the
  whole block), and the proof data of the pipeline (`dats`). Stated for every float instance.
-/
import proofs.«423696_j36790689857763_3_alg».proof.Proof.Gen.KernelIdeal.Launch
import proofs.«423696_j36790689857763_3_alg».proof.Proof.Gen.KernelIdeal.Skeleton
import proofs.«423696_j36790689857763_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents the region finds -/

/-- Core `c`'s buffer contents when the region is entered: after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

/-- The whole [1, 128, 3136] block: the input's load and the result's store. -/
abbrev rX : Rect S1x128x3136 := Rect.unit (s := S1x128x3136) ![0, 0, 0] S1x128x3136.size inb_S1x128x3136_S1x128x3136_0_0_0
/-- Column 0 of the two-column table's block: the reciprocals. -/
abbrev rA0 : Rect S128x2 := Rect.unit (s := S128x2) ![0, 0] S128x1.size inb_S128x2_S128x1_0_0
/-- Column 1 of it: the offsets. -/
abbrev rA1 : Rect S128x2 := Rect.unit (s := S128x2) ![0, 1] S128x1.size inb_S128x2_S128x1_0_1
/-- A whole [128, 18] table block. -/
abbrev rT : Rect S128x18 := Rect.unit (s := S128x18) ![0, 0] S128x18.size inb_S128x18_S128x18_0_0

/-- The value the body stores, from the four input blocks (left points, slopes, reciprocal and offset, input): the
    loads through their rectangles, then the skeleton's payloads in the order the body's three parts compute them. -/
def body0 (xfp xsl : Vec F S128x18 .f32) (xaux : Vec F S128x2 .f32) (xx : Vec F S1x128x3136 .f32) : FVec F S1x128x3136 .f32 :=
  k0_pay1 (k0_pay4 (View.ld xx rX) (View.ld xaux rA0) (View.ld xaux rA1)) (k0_pay5 (View.ld xx rX) (View.ld xaux rA0) (View.ld xaux rA1))
    (k0_pay6 (View.ld xfp rT)) (k0_pay7 (View.ld xsl rT))
    (k0_pay14 (k0_pay4 (View.ld xx rX) (View.ld xaux rA0) (View.ld xaux rA1)) (k0_pay5 (View.ld xx rX) (View.ld xaux rA0) (View.ld xaux rA1))
      (k0_pay6 (View.ld xfp rT)) (k0_pay7 (View.ld xsl rT))
      (k0_pay11 (k0_pay4 (View.ld xx rX) (View.ld xaux rA0) (View.ld xaux rA1)) (k0_pay5 (View.ld xx rX) (View.ld xaux rA0) (View.ld xaux rA1))
        (k0_pay6 (View.ld xfp rT)) (k0_pay7 (View.ld xsl rT))
        (k0_pay8 (View.ld xx rX) (View.ld xaux rA0) (View.ld xaux rA1) (View.ld xfp rT) (View.ld xsl rT))
        (k0_pay9 (View.ld xfp rT)) (k0_pay10 (View.ld xsl rT)))
      (k0_pay12 (k0_pay6 (View.ld xfp rT))) (k0_pay13 (k0_pay7 (View.ld xsl rT))))
    (k0_pay15 (k0_pay6 (View.ld xfp rT))) (k0_pay16 (k0_pay7 (View.ld xsl rT)))

/-- The result window's staging buffer after the body: its one store, of the whole block. -/
def out0_4 (xfp xsl : Vec F S128x18 .f32) (xaux : Vec F S128x2 .f32) (xx : Vec F S1x128x3136 .f32) : Vec F S1x128x3136 .f32 :=
  View.canon [⟨rX, body0 xfp xsl xaux xx⟩]

/-! ## The pipeline's proof data -/

/-- On core `c`: the arrays as the region finds them; after the body at point `t` each input's buffer at its block and
    the result's at `out0_4` of the input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

end Cert.KernelIdeal.Fr

end
-- ==== Proof.KI.Frame.lean ====
/-
  The frame of the idealized kernel program: every weakly fair execution of @main terminates, and its five argument
  arrays end as launched.

  @main is thirty host operations, one pipelined region on a 16 × 2 grid, and one host operation. Each host
  operation writes its own result buffer and nothing else, so none writes an argument array; the region writes only
  its result window's array; and no argument array is an array of a window (the input reaches the region reshaped,
  as a buffer of its own). So each argument array is untouched from the launch to the end.

  The region's run is the library's, given the body's triple at a generic grid point: on the five staging memrefs —
  the four inputs' holding their blocks, the result's holding anything — the body loads the inputs through their
  rectangles, computes, loads the result's buffer once without using what it read, and stores the whole
  [1, 128, 3136] block once. One store of the whole block covers the buffer, so the buffer ends at the canonical
  contents of that one piece, `out0_4` of the four input blocks, whatever it held before. Stated for every float
  instance.
-/
import proofs.«423696_j36790689857763_3_alg».proof.Proof.KI.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region allocate nothing, -/
theorem hostOps0_fresh : (hostOps0 : List (HloOp τ sig (Elt F))).Forall fun op => op.fresh = ∅ := by
  simp only [List.Forall]; repeat' constructor
/-- nor does the one after it. -/
theorem hostOps1_fresh : (hostOps1 : List (HloOp τ sig (Elt F))).Forall fun op => op.fresh = ∅ := by
  simp only [List.Forall]; repeat' constructor

/-- @main is the host operations before the region, the region, and the host operation after it: it reduces to the
    region, entered at the contents `V`, continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches unscoped TensorCore buffers only: each is an array of a window or a buffer
    the region bypasses. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes `main_v30`, which is no array of a window. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays, at the region's entry and at the end -/

set_option maxHeartbeats 1000000 in
/-- No host operation before the region writes `main_arg0` (each writes its own result buffer, `main_v0` … `main_v28` or
    the constant's): the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg0` is none: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 1000000 in
/-- No host operation before the region writes `main_arg1` (each writes its own result buffer, `main_v0` … `main_v28` or
    the constant's): the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg1` is none: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 1000000 in
/-- No host operation before the region writes `main_arg2` (each writes its own result buffer, `main_v0` … `main_v28` or
    the constant's): the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg2` is none: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 1000000 in
/-- No host operation before the region writes `main_arg3` (each writes its own result buffer, `main_v0` … `main_v28` or
    the constant's): the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg3` is none: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 1000000 in
/-- No host operation before the region writes `main_arg4` (each writes its own result buffer, `main_v0` … `main_v28` or
    the constant's): the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The one host operation after the region writes `main_v30`, and the region itself only its windows' arrays, of which
    `main_arg4` is none: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The input windows' staging buffers hold their blocks

An input window is fetched at every point, uncut and never idle, and the body leaves its buffer as it found it: so at
every point its current staging buffer holds its block of the array, for any proof data whose array is the
region-entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data, a run to the library's frame post — every unscoped buffer that is no window's array ends as
    the operation after the region leaves it — read at the five argument arrays is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c)⟩) h

/-! ## The body's triple -/

/-- The one store is of the whole block, so it covers the result's buffer. -/
theorem cover0_4 (p0 : Vec F S1x128x3136 .f32) (y : S1x128x3136.Idx) :
    ∃ pc ∈ ([⟨rX, p0⟩] : List (View.Piece (Elt F) S1x128x3136 .f32)), y ∈ pc.1.set :=
  View.cover_of_tiled [⟨rX, p0⟩] S1x128x3136.size (by rfl) y

set_option maxHeartbeats 1000000 in
/-- The kernel body on whole staging memrefs, the four inputs' at read contents `x0 … x3` and the result's at anything,
    runs to the continuation holding the inputs' as they were and the result's at `out0_4 x0 x1 x2 x3`: the three parts
    load the inputs and return pure values of them, the load of the result's buffer changes nothing, and the one store
    of the whole block leaves the canonical contents of that piece. -/
theorem sound_kernel (c : Dev nD) (E : Set ℕ) (i : grid0.Coords)
    (arg2 : Memref sig .tc .vmem S128x18 .f32) (harg2 : arg2.IsWhole) (arg3 : Memref sig .tc .vmem S128x18 .f32) (harg3 : arg3.IsWhole)
    (arg4 : Memref sig .tc .vmem S128x2 .f32) (harg4 : arg4.IsWhole) (arg5 : Memref sig .tc .vmem S1x128x3136 .f32) (harg5 : arg5.IsWhole)
    (arg6 : Memref sig .tc .vmem S1x128x3136 .f32) (harg6 : arg6.IsWhole)
    (x0 x1 : Vec F S128x18 .f32) (x2 : Vec F S128x2 .f32) (x3 : Vec F S1x128x3136 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__lambda_ i arg2 harg2 arg3 harg3 arg4 harg4 arg5 harg5 arg6 harg6) K := by
  simp only [cc0__lambda__eq_skeleton]; unfold cc0__lambda__skel
  simp only [k0_part1_eq_skeleton]; unfold k0_part1_skel
  simp only [k0_part2_eq_skeleton]; unfold k0_part2_skel
  simp only [k0_part3_eq_skeleton]; unfold k0_part3_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  unfold out0_4 body0
  exact View.read_writes_eq_canon _ _ _ (cover0_4 _)

/-! ## The body obligation, at a generic point -/

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, for any values: every weakly fair execution of @main on the TensorCores
    terminates, and every final state has every array of the pipeline at what the library computes from the proof data
    and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: @main runs, and the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.KI.Run.lean ====
/-
  The idealized kernel program's run, read at its result.

  The result of @main is the one host operation after the region: the region's output array [16, 256, 3136] reshaped
  to [16, 256, 56, 56]. The frame run already says what every buffer that bypasses the region holds at the end — the
  contents after the host operation following the region, from the region's exit; the result buffer is one of them, and
  the five argument arrays are five more, unchanged.
-/
import proofs.«423696_j36790689857763_3_alg».proof.Proof.KI.Frame

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- Every weakly fair execution of @main terminates with the result buffer at the contents the host operation after
    the region leaves there, and the five argument arrays as launched. -/
theorem run_result : θ_run defs (onTc (τ := τ) (main (F := F))) ⟨m, fun _ => 0, ρ⟩ (fun r => ∀ c : Dev nD,
      r.2.mem ((c.tc : Thread nD τ).loc main_v30) = Pipeline.afterTail₀ cfgs (dats m) 0 (V0 m) [hostOps1] c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v30 (Pipeline.mem_restRefs_of main_v30 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Fr

end
-- ==== Proof.LibNary3.lean ====
/-
  A host operation over a LITERAL family of three references — a concatenation of three operands — read at its result
  buffer: its function applied to the three operands' contents, each AT ITS OWN REFERENCE (`Fin.cons (F ↑x) …` rather than
  `fun k => F ↑(![x, a, b] k)`), so that rewriting can go on into the operands' own terms. The library has this fact
  for four references; this is the same fact for three, in the plain form for `rw` and in the form a `simp` pass fires.
-/
import Idealize.ShloMosaic.Lib.StableHlo.Run

noncomputable section

namespace Idealize.ShloMosaic.StableHlo

variable {τ : Topo} {sig : RefSig} {Val : EltTy → Type}
variable {x a b y : Ref sig .tc}

/-- The result of a three-operand operation at its result buffer, operand by operand. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference kept out of the simplifier's index so that a `simp` pass fires it. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.KI.Arrays.lean ====
/-
  The idealized kernel's arrays at their literal types, and the per-channel tables @main computes before the region
  as pure terms of the argument arrays.

  From the bounds [256, 2]: the left bound `lbT`, the region length `rlT` (right minus left), the simulated left bound
  `sLT` (left minus region length). From the points [256, 17] and the two slope vectors: the slopes table `slT`
  [256, 18] (left slope, the 16 successive differences of the points over the region length, right slope) and the
  left-points table `fpT` [256, 18] (the first point moved back by left slope times region length, then the 17 points).
  The two-column table `auxT` [256, 2]: the reciprocal of the region length, and minus the simulated left bound times
  that reciprocal. Stated for every float instance.
-/
import proofs.«423696_j36790689857763_3_alg».proof.Proof.KI.Data

noncomputable section

namespace Cert.KernelIdeal.Fr

open Cert.KernelIdeal Cert.KernelIdeal.Gen
open Idealize.ShloMosaic Idealize.ShloMosaic.TcCoe
open Idealize.SL.Sem

variable {F : FTy → Type} [FloatOps F]

/-! ## The per-channel vectors and tables -/

/-- The left bounds: column 0 of the bounds. -/
def lbT (x2 : FVec F S256x2 .f32) : FVec F S256 .f32 :=
  shapeCast _ (extractStridedSlice S256x1 ![0, 0] x2 slices_S256x2_S256x1_0_0) shapeCasts_S256x1_S256
/-- The right bounds: column 1 of the bounds. -/
def rbT (x2 : FVec F S256x2 .f32) : FVec F S256 .f32 :=
  shapeCast _ (extractStridedSlice S256x1 ![0, 1] x2 slices_S256x2_S256x1_0_1) shapeCasts_S256x1_S256
/-- The region lengths: right minus left. -/
def rlT (x2 : FVec F S256x2 .f32) : FVec F S256 .f32 := subf (rbT x2) (lbT x2)
/-- The simulated left bounds: left minus region length. -/
def sLT (x2 : FVec F S256x2 .f32) : FVec F S256 .f32 := subf (lbT x2) (rlT x2)

/-- The slopes table: left slope, inner slopes, right slope. -/
def slT (x1 : FVec F S256x17 .f32) (x2 : FVec F S256x2 .f32) (x3 x4 : FVec F S256 .f32) : FVec F S256x18 .f32 :=
  concatenate S256x18 1
    [⟨S256x1, broadcastInDim S256x1 ![0] bcast_S256_S256x1_0 x3⟩,
     ⟨S256x16, Host.divf (subf (extractStridedSlice S256x16 ![0, 1] x1 slices_S256x17_S256x16_0_1) (extractStridedSlice S256x16 ![0, 0] x1 slices_S256x17_S256x16_0_0))
        (broadcastInDim S256x16 ![0, 1] bcast_S256x1_S256x16_0_1 (broadcastInDim S256x1 ![0] bcast_S256_S256x1_0 (rlT x2)))⟩,
     ⟨S256x1, broadcastInDim S256x1 ![0] bcast_S256_S256x1_0 x4⟩] concatenates_S256x1_S256x16_S256x1_S256x18_d1

/-- The left-points table: the simulated first point, then the points. -/
def fpT (x1 : FVec F S256x17 .f32) (x2 : FVec F S256x2 .f32) (x3 : FVec F S256 .f32) : FVec F S256x18 .f32 :=
  concatenate S256x18 1
    [⟨S256x1, broadcastInDim S256x1 ![0] bcast_S256_S256x1_0
        (subf (shapeCast _ (extractStridedSlice S256x1 ![0, 0] x1 slices_S256x17_S256x1_0_0) shapeCasts_S256x1_S256) (mulf x3 (rlT x2)))⟩,
     ⟨S256x17, x1⟩] concatenates_S256x1_S256x17_S256x18_d1

/-- The reciprocals of the region lengths. -/
def invT (x2 : FVec F S256x2 .f32) : FVec F S256 .f32 :=
  Host.divf (broadcastInDim S256 ![] bcast_S_S256 (constant S_ .f32 0x3F800000#32)) (rlT x2)
/-- The offsets: minus the simulated left bound, times the reciprocal. -/
def offT (x2 : FVec F S256x2 .f32) : FVec F S256 .f32 := mulf (Host.negf (sLT x2)) (invT x2)
/-- The two-column table: reciprocal, offset. -/
def auxT (x2 : FVec F S256x2 .f32) : FVec F S256x2 .f32 :=
  concatenate S256x2 1
    [⟨S256x1, broadcastInDim S256x1 ![0] bcast_S256_S256x1_0 (invT x2)⟩,
     ⟨S256x1, broadcastInDim S256x1 ![0] bcast_S256_S256x1_0 (offT x2)⟩] concatenates_S256x1_S256x1_S256x2_d1

/-! ## The arrays the region stages, and the result, at their literal types -/

variable (m : (ℓ : Loc nD τ sig) → Buf (Elt F) ℓ)

/-- The argument arrays. -/
abbrev a0 (c : Dev nD) : FVec F S16x256x56x56 .f32 := m ((c : Thread nD τ).loc main_arg0)
abbrev a1 (c : Dev nD) : FVec F S256x17 .f32 := m ((c : Thread nD τ).loc main_arg1)
abbrev a2 (c : Dev nD) : FVec F S256x2 .f32 := m ((c : Thread nD τ).loc main_arg2)
abbrev a3 (c : Dev nD) : FVec F S256 .f32 := m ((c : Thread nD τ).loc main_arg3)
abbrev a4 (c : Dev nD) : FVec F S256 .f32 := m ((c : Thread nD τ).loc main_arg4)
/-- The input as the region stages it: reshaped to [16, 256, 3136]. -/
abbrev xarr (c : Dev nD) : FVec F S16x256x3136 .f32 := V m c main_v28
/-- The two-column table as the region stages it. -/
abbrev auxarr (c : Dev nD) : FVec F S256x2 .f32 := V m c main_v27
/-- The left-points table as the region stages it. -/
abbrev fparr (c : Dev nD) : FVec F S256x18 .f32 := V m c main_v20
/-- The slopes table as the region stages it. -/
abbrev slarr (c : Dev nD) : FVec F S256x18 .f32 := V m c main_v13
/-- The result array [16, 256, 3136] after the region's last point. -/
abbrev outarr (c : Dev nD) : FVec F S16x256x3136 .f32 := (dats m 0 c).arrAt 4 cfg0.N

end Cert.KernelIdeal.Fr

end
-- ==== Proof.Spec.lean ====
/-
  The piecewise-linear unit, one element at a time, on the extended reals.

  A channel carries a left bound, a region length `rl`, the simulated left bound `sL` (the left bound moved one
  region length further left), a table `fp` of 18 left points and a table `sl` of 18 slopes. An element `x` of the
  channel is sent to `t = (x - sL) / rl`; its region is `⌊t⌋` clamped into `0 … 17`, its distance `t - ⌊clamp t⌋`, and the
  result is `fp[region] + distance · sl[region]`.

  Two ways of computing it are written down here. `outKer` multiplies by the reciprocal of the region length and adds
  an offset, clamps `t` itself between `0` and a bound a little above `17`, and picks the table entries by a chain of
  18 selects on the region. `outRef` divides by `17 · rl`, clamps the normalised position between `0` and a bound a
  little above `1`, multiplies by `17`, and picks the table entries by a guarded lookup. `scalar_eq`: on real `x`,
  `sL` and a real nonzero `rl` the two agree — the two upper bounds differ, but both lie strictly between `17` and
  `18`, and only the floor of the clamped value is used.
-/
import Idealize.ShloMosaic.PureOps.Ideal
import Idealize.ShloMosaic.Lib.ValueIdx

noncomputable section

namespace Cert.Pwlu

open Idealize.ShloMosaic

/-- The literals of the two programs, as the extended reals their words denote. -/
def cZero : EReal := Ideal.ofBits .f32 0x00000000#32
def cOne : EReal := Ideal.ofBits .f32 0x3F800000#32
def c17 : EReal := Ideal.ofBits .f32 0x41880000#32
/-- the first program's upper clamp, a little above 17 -/
def cHiK : EReal := Ideal.ofBits .f32 0x418822D1#32
/-- the second program's upper clamp, a little above 1 -/
def cHiR : EReal := Ideal.ofBits .f32 0x3F8020C5#32
/-- the fill of a lookup out of range (never selected) -/
def cFill : EReal := Ideal.ofBits .f32 0x7FC00000#32

/-! ## The first way: reciprocal, offset, a chain of selects -/

/-- The reciprocal of the region length. -/
def invRl (rl : EReal) : EReal := Ideal.div cOne rl
/-- The offset: minus the simulated left bound, over the region length. -/
def off2 (sL rl : EReal) : EReal := (-sL) * invRl rl
/-- The position in region lengths. -/
def tKer (x inv off : EReal) : EReal := x * inv + off
/-- Its region, as an extended real. -/
def regKer (t : EReal) : EReal := Ideal.liftRound Int.floor (min cHiK (max cZero t))
/-- Its region, as a word clamped into `0 … 17`. -/
def idxKer (t : EReal) : BitVec 32 := IntOp.minsi 17#32 (IntOp.maxsi 0#32 (Ideal.fptosi 32 (regKer t)))
/-- The chain of selects: entry 0 unless the region is 1, …, 17. -/
def chain18 (fp sl : Fin 18 → EReal) (d : EReal) (i : BitVec 32) : EReal :=
  (Scalar.select (IntOp.cmpi .eq i 17#32) (fp 17 + d * sl 17)
    (Scalar.select (IntOp.cmpi .eq i 16#32) (fp 16 + d * sl 16)
    (Scalar.select (IntOp.cmpi .eq i 15#32) (fp 15 + d * sl 15)
    (Scalar.select (IntOp.cmpi .eq i 14#32) (fp 14 + d * sl 14)
    (Scalar.select (IntOp.cmpi .eq i 13#32) (fp 13 + d * sl 13)
    (Scalar.select (IntOp.cmpi .eq i 12#32) (fp 12 + d * sl 12)
    (Scalar.select (IntOp.cmpi .eq i 11#32) (fp 11 + d * sl 11)
    (Scalar.select (IntOp.cmpi .eq i 10#32) (fp 10 + d * sl 10)
    (Scalar.select (IntOp.cmpi .eq i 9#32) (fp 9 + d * sl 9)
    (Scalar.select (IntOp.cmpi .eq i 8#32) (fp 8 + d * sl 8)
    (Scalar.select (IntOp.cmpi .eq i 7#32) (fp 7 + d * sl 7)
    (Scalar.select (IntOp.cmpi .eq i 6#32) (fp 6 + d * sl 6)
    (Scalar.select (IntOp.cmpi .eq i 5#32) (fp 5 + d * sl 5)
    (Scalar.select (IntOp.cmpi .eq i 4#32) (fp 4 + d * sl 4)
    (Scalar.select (IntOp.cmpi .eq i 3#32) (fp 3 + d * sl 3)
    (Scalar.select (IntOp.cmpi .eq i 2#32) (fp 2 + d * sl 2)
    (Scalar.select (IntOp.cmpi .eq i 1#32) (fp 1 + d * sl 1)
    (fp 0 + d * sl 0))))))))))))))))))
/-- The first way's result. -/
def outKer (x inv off : EReal) (fp sl : Fin 18 → EReal) : EReal :=
  chain18 fp sl (tKer x inv off - regKer (tKer x inv off)) (idxKer (tKer x inv off))

/-! ## The second way: quotient, clamp of the normalised position, guarded lookup -/

/-- The normalised position. -/
def xnRef (x sL rl : EReal) : EReal := Ideal.div (x - sL) (c17 * rl)
/-- Its region, as an extended real. -/
def regRef (xn : EReal) : EReal := Ideal.liftRound Int.floor (min cHiR (max cZero xn) * c17)
/-- Its region, as a word. -/
def idxRef (xn : EReal) : BitVec 32 := Ideal.fptosi 32 (regRef xn)
/-- A negative index counts from the end. -/
def wrapIdx (i : BitVec 32) : BitVec 32 := Scalar.select (IntOp.cmpi .slt i 0#32) (IntOp.addi i 18#32) i
/-- The guarded lookup: the table at the wrapped index clamped into the table, under the guard `mk` of the wrapped index. -/
def takeRef (mk : BitVec 32 → BitVec 1) (T : Fin 18 → EReal) (i : BitVec 32) : EReal :=
  Scalar.select (mk (wrapIdx i)) (T ⟨min (wrapIdx i).toInt.toNat 17, by omega⟩) cFill
/-- The second way's result. -/
def outRef (mk : BitVec 32 → BitVec 1) (x sL rl : EReal) (fp sl : Fin 18 → EReal) : EReal :=
  takeRef mk fp (idxRef (xnRef x sL rl)) + (xnRef x sL rl * c17 - regRef (xnRef x sL rl)) * takeRef mk sl (idxRef (xnRef x sL rl))

/-! ## The literals -/

theorem cZero_eq : cZero = 0 := by
  simp [cZero, Ideal.ofBits, Ideal.ieee]

theorem cOne_eq : cOne = ((1 : ℝ) : EReal) := by
  simp [cOne, Ideal.ofBits, Ideal.ieee, -EReal.coe_mul]; norm_num

theorem c17_eq : c17 = ((17 : ℝ) : EReal) := by
  simp [c17, Ideal.ofBits, Ideal.ieee, -EReal.coe_mul]; norm_num

theorem cHiK_eq : cHiK = ((8921809 / 524288 : ℝ) : EReal) := by
  simp [cHiK, Ideal.ofBits, Ideal.ieee, -EReal.coe_mul]; norm_num

theorem cHiR_eq : cHiR = ((8396997 / 8388608 : ℝ) : EReal) := by
  simp [cHiR, Ideal.ofBits, Ideal.ieee, -EReal.coe_mul]; norm_num

/-! ## The position: both ways compute the real (x - sL) / rl -/

/-- The reciprocal of a nonzero real region length is the real reciprocal. -/
theorem invRl_coe (rl : ℝ) (hrl : rl ≠ 0) : invRl (rl : EReal) = ((1 / rl : ℝ) : EReal) := by
  rw [invRl, Ideal.div_coe hrl, cOne_eq, ← EReal.coe_mul, one_mul]

/-- The first way's position is the real (x - sL) / rl. -/
theorem tKer_coe (x sL rl : ℝ) (hrl : rl ≠ 0) :
    tKer (x : EReal) (invRl (rl : EReal)) (off2 (sL : EReal) (rl : EReal)) = (((x - sL) / rl : ℝ) : EReal) := by
  rw [tKer, off2, invRl_coe rl hrl, ← EReal.coe_neg, ← EReal.coe_mul, ← EReal.coe_mul, ← EReal.coe_add]
  congr 1
  field_simp
  ring

/-- The second way's normalised position is the real (x - sL) / rl / 17. -/
theorem xnRef_coe (x sL rl : ℝ) (hrl : rl ≠ 0) :
    xnRef (x : EReal) (sL : EReal) (rl : EReal) = (((x - sL) / rl / 17 : ℝ) : EReal) := by
  have h : (17 * rl : ℝ) ≠ 0 := mul_ne_zero (by norm_num) hrl
  rw [xnRef, c17_eq, ← EReal.coe_mul, ← EReal.coe_sub, Ideal.div_coe h, ← EReal.coe_mul]
  congr 1
  field_simp

/-- Multiplied back by 17 it is the first way's position. -/
theorem coe_div17_mul_c17 (t : ℝ) : ((t / 17 : ℝ) : EReal) * c17 = (t : EReal) := by
  rw [c17_eq, ← EReal.coe_mul]
  congr 1
  field_simp

/-! ## The region: only the floor of the clamped position is used -/

/-- Any two upper clamps strictly between 17 and 18 give the same floor. -/
theorem floor_clamp_eq (u a b : ℝ) (ha : 17 < a) (ha' : a < 18) (hb : 17 < b) (hb' : b < 18) :
    ⌊min a (max 0 u)⌋ = ⌊min b (max 0 u)⌋ := by
  rcases le_or_gt u 17 with h | h
  · have h1 : max 0 u ≤ 17 := max_le (by norm_num) h
    rw [min_eq_right (h1.trans ha.le), min_eq_right (h1.trans hb.le)]
  · have h1 : max 0 u = u := max_eq_right (by linarith)
    have key : ∀ c : ℝ, 17 < c → c < 18 → ⌊min c u⌋ = 17 := by
      intro c hc hc'
      rw [Int.floor_eq_iff]
      constructor
      · push_cast
        exact le_min hc.le h.le
      · push_cast
        exact (min_le_left _ _).trans_lt (by linarith)
    rw [h1, key a ha ha', key b hb hb']

theorem floor_clamp_nonneg (u a : ℝ) (ha : 17 < a) : 0 ≤ ⌊min a (max 0 u)⌋ :=
  Int.floor_nonneg.mpr (le_min (by linarith) (le_max_left _ _))

theorem floor_clamp_le (u a : ℝ) (ha' : a < 18) : ⌊min a (max 0 u)⌋ ≤ 17 := by
  have h : ⌊min a (max 0 u)⌋ < 18 := by
    rw [Int.floor_lt]
    push_cast
    exact (min_le_left _ _).trans_lt ha'
  omega

/-- The first way's region at a real position. -/
theorem regKer_coe (t : ℝ) :
    regKer (t : EReal) = (((⌊min (8921809 / 524288 : ℝ) (max 0 t)⌋ : ℤ) : ℝ) : EReal) := by
  rw [regKer, cHiK_eq, cZero_eq, ← EReal.coe_zero, ← EReal.coe_strictMono.monotone.map_max,
    ← EReal.coe_strictMono.monotone.map_min, Ideal.liftRound_coe]

/-- The second way's region at a real normalised position t / 17: the clamp at a little above 1, times 17, is the
    clamp of t at 17 times as much. -/
theorem regRef_coe (t : ℝ) :
    regRef ((t / 17 : ℝ) : EReal) = (((⌊min (142748949 / 8388608 : ℝ) (max 0 t)⌋ : ℤ) : ℝ) : EReal) := by
  have h : min (8396997 / 8388608 : ℝ) (max 0 (t / 17)) * 17 = min (142748949 / 8388608 : ℝ) (max 0 t) := by
    rw [min_mul_of_nonneg _ _ (by norm_num : (0 : ℝ) ≤ 17), max_mul_of_nonneg _ _ (by norm_num : (0 : ℝ) ≤ 17)]
    have e1 : (8396997 / 8388608 : ℝ) * 17 = 142748949 / 8388608 := by norm_num
    have e2 : t / 17 * 17 = t := by field_simp
    rw [e1, e2, zero_mul]
  rw [regRef, cHiR_eq, cZero_eq, c17_eq, ← EReal.coe_zero, ← EReal.coe_strictMono.monotone.map_max,
    ← EReal.coe_strictMono.monotone.map_min, ← EReal.coe_mul, Ideal.liftRound_coe, h]

/-- The two regions are one integer between 0 and 17. -/
theorem regions (t : ℝ) : ∃ k : Fin 18,
    regKer (t : EReal) = ((((k : ℕ) : ℤ) : ℝ) : EReal) ∧ regRef ((t / 17 : ℝ) : EReal) = ((((k : ℕ) : ℤ) : ℝ) : EReal) := by
  have h0 := floor_clamp_nonneg t (8921809 / 524288) (by norm_num)
  have h17 := floor_clamp_le t (8921809 / 524288) (by norm_num)
  have he := floor_clamp_eq t (142748949 / 8388608) (8921809 / 524288) (by norm_num) (by norm_num) (by norm_num)
    (by norm_num)
  obtain ⟨k, hk⟩ := Int.eq_ofNat_of_zero_le h0
  refine ⟨⟨k, by omega⟩, ?_, ?_⟩
  · rw [regKer_coe, hk]
  · rw [regRef_coe, he, hk]

/-! ## The words -/

/-- The word of an integer-valued real between 0 and 17. -/
theorem fptosi_coe_fin (k : Fin 18) : Ideal.fptosi 32 (((((k : ℕ) : ℤ) : ℝ)) : EReal) = BitVec.ofNat 32 k := by
  have hk : (0 : ℝ) ≤ (((k : ℕ) : ℤ) : ℝ) := by positivity
  have hk' := k.isLt
  rw [Ideal.fptosi, Ideal.toIntClamped_coe, if_pos hk, Int.floor_intCast]
  have e : max (-((2 ^ (32 - 1) : ℕ) : ℤ)) (min (((2 ^ (32 - 1) : ℕ) : ℤ) - 1) ((k : ℕ) : ℤ)) = ((k : ℕ) : ℤ) := by
    norm_num
    omega
  rw [e, BitVec.ofInt_natCast]

/-- A word between 0 and 17 is not negative, so wrapping leaves it. -/
theorem wrapIdx_fin : ∀ k : Fin 18, wrapIdx (BitVec.ofNat 32 k) = BitVec.ofNat 32 k := by
  decide

theorem toInt_fin : ∀ k : Fin 18, (BitVec.ofNat 32 k).toInt = ((k : ℕ) : ℤ) := by
  decide

/-- The signed clamp into 0 … 17 leaves such a word. -/
theorem clamp_fin : ∀ k : Fin 18, IntOp.minsi 17#32 (IntOp.maxsi 0#32 (BitVec.ofNat 32 k)) = BitVec.ofNat 32 k := by
  decide

/-- The guarded lookup at such a word reads the table there. -/
theorem takeRef_fin (mk : BitVec 32 → BitVec 1) (hmk : ∀ j : BitVec 32, 0 ≤ j.toInt → j.toInt ≤ 17 → mk j = 1#1)
    (T : Fin 18 → EReal) (k : Fin 18) : takeRef mk T (BitVec.ofNat 32 k) = T k := by
  have hk' := k.isLt
  have h1 := toInt_fin k
  have hg : mk (BitVec.ofNat 32 k) = 1#1 := hmk _ (by rw [h1]; omega) (by rw [h1]; omega)
  have hw := wrapIdx_fin k
  have hg' : mk (wrapIdx (BitVec.ofNat 32 k)) = 1#1 := by rw [hw]; exact hg
  unfold takeRef
  rw [hg']
  rw [Scalar.select, if_pos (by decide : (1#1 : BitVec 1) = 1)]
  congr 1
  apply Fin.ext
  show min (wrapIdx (BitVec.ofNat 32 k)).toInt.toNat 17 = k
  rw [hw, h1]
  omega

/-- The chain of selects at such a word picks that entry. -/
theorem chain18_fin (fp sl : Fin 18 → EReal) (d : EReal) (k : Fin 18) :
    chain18 fp sl d (BitVec.ofNat 32 k) = fp k + d * sl k := by
  fin_cases k <;> simp [chain18, Scalar.select, IntOp.cmpi]

/-! ## The two ways agree on the reals -/

/-- On real `x`, `sL` and a real nonzero region length the two ways give one value, whatever the tables hold, for any
    guard that passes the indices `0 … 17`. -/
theorem scalar_eq (mk : BitVec 32 → BitVec 1) (hmk : ∀ j : BitVec 32, 0 ≤ j.toInt → j.toInt ≤ 17 → mk j = 1#1)
    (x sL rl : ℝ) (hrl : rl ≠ 0) (fp sl : Fin 18 → EReal) :
    outRef mk (x : EReal) (sL : EReal) (rl : EReal) fp sl
      = outKer (x : EReal) (invRl (rl : EReal)) (off2 (sL : EReal) (rl : EReal)) fp sl := by
  obtain ⟨k, hK, hR⟩ := regions ((x - sL) / rl)
  have hxn := xnRef_coe x sL rl hrl
  have ht := tKer_coe x sL rl hrl
  rw [outRef, outKer, hxn, ht, idxRef, idxKer, hR, hK, coe_div17_mul_c17, fptosi_coe_fin, clamp_fin,
    takeRef_fin mk hmk, takeRef_fin mk hmk, chain18_fin]

end Cert.Pwlu

end
-- ==== Proof.KI.Value.lean ====
/-
  The idealized kernel's result array, index by index.

  The region runs on a 16 × 2 grid. At point (b, h) its body sees rows 128h … 128h + 127 of the left-points table, the
  slopes table and the two-column table (reciprocal, offset), and block (b, h) — one image, 128 channels, 3136
  positions — of the input, and stores one [1, 128, 3136] block. Three steps:

  * at row r and position j of the block the stored value is the piecewise-linear unit's first way (`Cert.Pwlu.outKer`)
    of the input element, the row's reciprocal and offset, and the row's 18 left points and 18 slopes: the body forms
    t = x · inv + off, the floor of t clamped to [0, 17.017], the distance t − floor, the region word clamped into
    0 … 17, and a chain of 17 selects over the 18 entries fp k + distance · sl k, entry 0 innermost;
  * what point (b, h) writes back is block (b, h) of one function of the whole arrays: channel 128h + r of the tables
    is row r of their blocks, and element (b, 128h + r, j) of the input is element (0, r, j) of its block;
  * every index (b, ch, j) of the result lies in the block of point (b, ch / 128), so the result array is that function.
-/
import proofs.«423696_j36790689857763_3_alg».proof.Proof.KI.Arrays
import proofs.«423696_j36790689857763_3_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe
open Idealize.SL.Sem
open Idealize.ShloMosaic.Pipeline (Dat)
open Idealize.ShloMosaic.ValueIdx

/-! ## The layout operations of the body, read at an index -/

theorem hz3 : (![0, 0, 0] : Fin 3 → Nat) = fun _ => 0 := funext fun a => by fin_cases a <;> rfl
theorem hz2 : (![0, 0] : Fin 2 → Nat) = fun _ => 0 := funext fun a => by fin_cases a <;> rfl

/-- The load of column 0 of the [128, 2] block reads, at row r, the block at (r, 0). -/
theorem ld_rA0 (xaux : Vec Ideal S128x2 .f32) (r : Fin 128) :
    View.ld xaux rA0 (ix2 r (0 : Fin 1)) = xaux (ix2 r (0 : Fin 2)) := by
  show xaux (rA0.toLoadRect.idx (ix2 r (0 : Fin 1))) = _
  congr 1
  funext a
  apply Fin.ext
  match a with
  | ⟨0, _⟩ => show 0 + 1 * r.val = r.val; omega
  | ⟨1, _⟩ => show 0 + 1 * 0 = 0; rfl

/-- The load of column 1 of the [128, 2] block reads, at row r, the block at (r, 1). -/
theorem ld_rA1 (xaux : Vec Ideal S128x2 .f32) (r : Fin 128) :
    View.ld xaux rA1 (ix2 r (0 : Fin 1)) = xaux (ix2 r (1 : Fin 2)) := by
  show xaux (rA1.toLoadRect.idx (ix2 r (0 : Fin 1))) = _
  congr 1
  funext a
  apply Fin.ext
  match a with
  | ⟨0, _⟩ => show 0 + 1 * r.val = r.val; omega
  | ⟨1, _⟩ => show 1 + 1 * 0 = 1; rfl

/-- A [128, 1] column broadcast along the positions reads, at (r, j), the column at row r. -/
theorem bcast_col_apply (v : FVec Ideal S128x1 .f32) (r : Fin 128) (j : Fin 3136) :
    broadcastTo S128x3136 v broadcasts_S128x1_S128x3136 (ix2 r j) = v (ix2 r (0 : Fin 1)) := by
  refine broadcastTo_apply v broadcasts_S128x1_S128x3136 (ix2 r j) (ix2 r (0 : Fin 1)) fun ax => ?_
  match ax with
  | ⟨0, _⟩ => rfl
  | ⟨1, _⟩ => rfl

/-- Column k of a [128, 18] table, cut out as a [128, 1] column, reads at row r the table at (r, k). -/
theorem col_apply (v : FVec Ideal S128x18 .f32) (k : Nat) (h : S128x18.Slices ![0, k] S128x1) (kk : Fin 18)
    (hk : kk.val = k) (r : Fin 128) :
    extractStridedSlice S128x1 ![0, k] v h (ix2 r (0 : Fin 1)) = v (ix2 r kk) :=
  slice2_axis1_apply k v h r (0 : Fin 1) kk (by rw [hk]; rfl)

/-- The [1, 128, 3136] block viewed as [128, 3136] reads (0, r, j) at (r, j). -/
theorem drop1_apply (x : FVec Ideal S1x128x3136 .f32) (r : Fin 128) (j : Fin 3136) :
    shapeCast S128x3136 x shapeCasts_S1x128x3136_S128x3136 (ix2 r j) = x (ix3 (0 : Fin 1) r j) :=
  shapeCast_1ab_ab_apply x _ r j

/-- The [128, 3136] value stored as a [1, 128, 3136] block reads (r, j) at (0, r, j). -/
theorem add1_apply (x : FVec Ideal S128x3136 .f32) (u : Fin 1) (r : Fin 128) (j : Fin 3136) :
    shapeCast S1x128x3136 x shapeCasts_S128x3136_S1x128x3136 (ix3 u r j) = x (ix2 r j) :=
  shapeCast_ab_1ab_apply x _ u r j

/-- A comparison of integer vectors at an index compares the elements. -/
theorem cmpi_apply {s : Shape} {w : Nat} (p : CmpIPredicate) (a b : IVec s w) (i : s.Idx) :
    cmpi p a b i = IntOp.cmpi p (a i) (b i) := rfl

/-! ## The body's payloads at an index -/

/-- The position: input times reciprocal plus offset. -/
theorem pay2_apply (v0 : Vec Ideal S1x128x3136 .f32) (v2 v4 : Vec Ideal S128x1 .f32) (r : Fin 128) (j : Fin 3136) :
    k0_pay2 v0 v2 v4 (ix2 r j)
      = Cert.Pwlu.tKer (v0 (ix3 (0 : Fin 1) r j)) (v2 (ix2 r (0 : Fin 1))) (v4 (ix2 r (0 : Fin 1))) := by
  unfold k0_pay2 Cert.Pwlu.tKer
  simp only [addf_apply, mulf_apply, bcast_col_apply, shapeCast_self, drop1_apply]

/-- The floor of the clamped position. -/
theorem pay3_apply (v0 : Vec Ideal S1x128x3136 .f32) (v2 v4 : Vec Ideal S128x1 .f32) (r : Fin 128) (j : Fin 3136) :
    k0_pay3 v0 v2 v4 (ix2 r j)
      = Cert.Pwlu.regKer (Cert.Pwlu.tKer (v0 (ix3 (0 : Fin 1) r j)) (v2 (ix2 r (0 : Fin 1))) (v4 (ix2 r (0 : Fin 1)))) := by
  rw [← pay2_apply]
  rfl

/-- The distance: the position minus its floor. -/
theorem pay4_apply (v0 : Vec Ideal S1x128x3136 .f32) (v2 v4 : Vec Ideal S128x1 .f32) (r : Fin 128) (j : Fin 3136) :
    k0_pay4 v0 v2 v4 (ix2 r j)
      = Cert.Pwlu.tKer (v0 (ix3 (0 : Fin 1) r j)) (v2 (ix2 r (0 : Fin 1))) (v4 (ix2 r (0 : Fin 1)))
        - Cert.Pwlu.regKer (Cert.Pwlu.tKer (v0 (ix3 (0 : Fin 1) r j)) (v2 (ix2 r (0 : Fin 1))) (v4 (ix2 r (0 : Fin 1)))) := by
  rw [← pay3_apply, ← pay2_apply]
  rfl

/-- The region word, clamped into 0 … 17. -/
theorem pay5_apply (v0 : Vec Ideal S1x128x3136 .f32) (v2 v4 : Vec Ideal S128x1 .f32) (r : Fin 128) (j : Fin 3136) :
    k0_pay5 v0 v2 v4 (ix2 r j)
      = Cert.Pwlu.idxKer (Cert.Pwlu.tKer (v0 (ix3 (0 : Fin 1) r j)) (v2 (ix2 r (0 : Fin 1))) (v4 (ix2 r (0 : Fin 1)))) := by
  unfold Cert.Pwlu.idxKer
  rw [← pay3_apply]
  rfl

/-- The two tables' blocks pass through a cast to their own shape. -/
theorem pay6_eq (v21 : Vec Ideal S128x18 .f32) : k0_pay6 v21 = v21 := shapeCast_self v21 _
theorem pay7_eq (v23 : Vec Ideal S128x18 .f32) : k0_pay7 v23 = v23 := shapeCast_self v23 _

/-- The columns the body carries from one part to the next: columns 2, 8 and 14 of the two tables. -/
theorem pay9_apply (v21 : Vec Ideal S128x18 .f32) (r : Fin 128) : k0_pay9 v21 (ix2 r (0 : Fin 1)) = v21 (ix2 r (2 : Fin 18)) := by
  unfold k0_pay9; rw [pay6_eq]; exact col_apply _ 2 _ _ rfl r
theorem pay10_apply (v23 : Vec Ideal S128x18 .f32) (r : Fin 128) : k0_pay10 v23 (ix2 r (0 : Fin 1)) = v23 (ix2 r (2 : Fin 18)) := by
  unfold k0_pay10; rw [pay7_eq]; exact col_apply _ 2 _ _ rfl r
theorem pay12_apply (v22 : FVec Ideal S128x18 .f32) (r : Fin 128) : k0_pay12 v22 (ix2 r (0 : Fin 1)) = v22 (ix2 r (8 : Fin 18)) := by
  unfold k0_pay12; exact col_apply _ 8 _ _ rfl r
theorem pay13_apply (v24 : FVec Ideal S128x18 .f32) (r : Fin 128) : k0_pay13 v24 (ix2 r (0 : Fin 1)) = v24 (ix2 r (8 : Fin 18)) := by
  unfold k0_pay13; exact col_apply _ 8 _ _ rfl r
theorem pay15_apply (v22 : FVec Ideal S128x18 .f32) (r : Fin 128) : k0_pay15 v22 (ix2 r (0 : Fin 1)) = v22 (ix2 r (14 : Fin 18)) := by
  unfold k0_pay15; exact col_apply _ 14 _ _ rfl r
theorem pay16_apply (v24 : FVec Ideal S128x18 .f32) (r : Fin 128) : k0_pay16 v24 (ix2 r (0 : Fin 1)) = v24 (ix2 r (14 : Fin 18)) := by
  unfold k0_pay16; exact col_apply _ 14 _ _ rfl r

/-- Entries 0 and 1 of the chain. -/
theorem pay8_apply (v0 : Vec Ideal S1x128x3136 .f32) (v2 v4 : Vec Ideal S128x1 .f32) (v21 v23 : Vec Ideal S128x18 .f32)
    (r : Fin 128) (j : Fin 3136) :
    k0_pay8 v0 v2 v4 v21 v23 (ix2 r j)
      = (Scalar.select (IntOp.cmpi .eq (k0_pay5 v0 v2 v4 (ix2 r j)) 1#32) (v21 (ix2 r (1 : Fin 18)) + k0_pay4 v0 v2 v4 (ix2 r j) * v23 (ix2 r (1 : Fin 18)))
      (v21 (ix2 r (0 : Fin 18)) + k0_pay4 v0 v2 v4 (ix2 r j) * v23 (ix2 r (0 : Fin 18)))) := by
  unfold k0_pay8
  simp only [pay6_eq, pay7_eq, select_apply, addf_apply, mulf_apply, cmpi_apply, broadcast_apply, bcast_col_apply, col_apply _ 0 _ (0 : Fin 18) rfl, col_apply _ 1 _ (1 : Fin 18) rfl, col_apply _ 2 _ (2 : Fin 18) rfl, col_apply _ 3 _ (3 : Fin 18) rfl, col_apply _ 4 _ (4 : Fin 18) rfl, col_apply _ 5 _ (5 : Fin 18) rfl, col_apply _ 6 _ (6 : Fin 18) rfl, col_apply _ 7 _ (7 : Fin 18) rfl, col_apply _ 8 _ (8 : Fin 18) rfl, col_apply _ 9 _ (9 : Fin 18) rfl, col_apply _ 10 _ (10 : Fin 18) rfl, col_apply _ 11 _ (11 : Fin 18) rfl, col_apply _ 12 _ (12 : Fin 18) rfl, col_apply _ 13 _ (13 : Fin 18) rfl, col_apply _ 14 _ (14 : Fin 18) rfl, col_apply _ 15 _ (15 : Fin 18) rfl, col_apply _ 16 _ (16 : Fin 18) rfl, col_apply _ 17 _ (17 : Fin 18) rfl]

/-- Entries 2 … 7 of the chain, over what the entries below left. -/
theorem pay11_apply (v15 : FVec Ideal S128x3136 .f32) (v20 : IVec S128x3136 32) (v22 v24 : FVec Ideal S128x18 .f32)
    (v39 : FVec Ideal S128x3136 .f32) (v40 v41 : FVec Ideal S128x1 .f32) (r : Fin 128) (j : Fin 3136) :
    k0_pay11 v15 v20 v22 v24 v39 v40 v41 (ix2 r j)
      = (Scalar.select (IntOp.cmpi .eq (v20 (ix2 r j)) 7#32) (v22 (ix2 r (7 : Fin 18)) + v15 (ix2 r j) * v24 (ix2 r (7 : Fin 18)))
      (Scalar.select (IntOp.cmpi .eq (v20 (ix2 r j)) 6#32) (v22 (ix2 r (6 : Fin 18)) + v15 (ix2 r j) * v24 (ix2 r (6 : Fin 18)))
      (Scalar.select (IntOp.cmpi .eq (v20 (ix2 r j)) 5#32) (v22 (ix2 r (5 : Fin 18)) + v15 (ix2 r j) * v24 (ix2 r (5 : Fin 18)))
      (Scalar.select (IntOp.cmpi .eq (v20 (ix2 r j)) 4#32) (v22 (ix2 r (4 : Fin 18)) + v15 (ix2 r j) * v24 (ix2 r (4 : Fin 18)))
      (Scalar.select (IntOp.cmpi .eq (v20 (ix2 r j)) 3#32) (v22 (ix2 r (3 : Fin 18)) + v15 (ix2 r j) * v24 (ix2 r (3 : Fin 18)))
      (Scalar.select (IntOp.cmpi .eq (v20 (ix2 r j)) 2#32) (v40 (ix2 r (0 : Fin 1)) + v15 (ix2 r j) * v41 (ix2 r (0 : Fin 1)))
      (v39 (ix2 r j)))))))) := by
  unfold k0_pay11
  simp only [select_apply, addf_apply, mulf_apply, cmpi_apply, broadcast_apply, bcast_col_apply, col_apply _ 0 _ (0 : Fin 18) rfl, col_apply _ 1 _ (1 : Fin 18) rfl, col_apply _ 2 _ (2 : Fin 18) rfl, col_apply _ 3 _ (3 : Fin 18) rfl, col_apply _ 4 _ (4 : Fin 18) rfl, col_apply _ 5 _ (5 : Fin 18) rfl, col_apply _ 6 _ (6 : Fin 18) rfl, col_apply _ 7 _ (7 : Fin 18) rfl, col_apply _ 8 _ (8 : Fin 18) rfl, col_apply _ 9 _ (9 : Fin 18) rfl, col_apply _ 10 _ (10 : Fin 18) rfl, col_apply _ 11 _ (11 : Fin 18) rfl, col_apply _ 12 _ (12 : Fin 18) rfl, col_apply _ 13 _ (13 : Fin 18) rfl, col_apply _ 14 _ (14 : Fin 18) rfl, col_apply _ 15 _ (15 : Fin 18) rfl, col_apply _ 16 _ (16 : Fin 18) rfl, col_apply _ 17 _ (17 : Fin 18) rfl]

/-- Entries 8 … 13 of the chain. -/
theorem pay14_apply (v15 : FVec Ideal S128x3136 .f32) (v20 : IVec S128x3136 32) (v22 v24 : FVec Ideal S128x18 .f32)
    (v93 : FVec Ideal S128x3136 .f32) (v94 v95 : FVec Ideal S128x1 .f32) (r : Fin 128) (j : Fin 3136) :
    k0_pay14 v15 v20 v22 v24 v93 v94 v95 (ix2 r j)
      = (Scalar.select (IntOp.cmpi .eq (v20 (ix2 r j)) 13#32) (v22 (ix2 r (13 : Fin 18)) + v15 (ix2 r j) * v24 (ix2 r (13 : Fin 18)))
      (Scalar.select (IntOp.cmpi .eq (v20 (ix2 r j)) 12#32) (v22 (ix2 r (12 : Fin 18)) + v15 (ix2 r j) * v24 (ix2 r (12 : Fin 18)))
      (Scalar.select (IntOp.cmpi .eq (v20 (ix2 r j)) 11#32) (v22 (ix2 r (11 : Fin 18)) + v15 (ix2 r j) * v24 (ix2 r (11 : Fin 18)))
      (Scalar.select (IntOp.cmpi .eq (v20 (ix2 r j)) 10#32) (v22 (ix2 r (10 : Fin 18)) + v15 (ix2 r j) * v24 (ix2 r (10 : Fin 18)))
      (Scalar.select (IntOp.cmpi .eq (v20 (ix2 r j)) 9#32) (v22 (ix2 r (9 : Fin 18)) + v15 (ix2 r j) * v24 (ix2 r (9 : Fin 18)))
      (Scalar.select (IntOp.cmpi .eq (v20 (ix2 r j)) 8#32) (v94 (ix2 r (0 : Fin 1)) + v15 (ix2 r j) * v95 (ix2 r (0 : Fin 1)))
      (v93 (ix2 r j)))))))) := by
  unfold k0_pay14
  simp only [select_apply, addf_apply, mulf_apply, cmpi_apply, broadcast_apply, bcast_col_apply, col_apply _ 0 _ (0 : Fin 18) rfl, col_apply _ 1 _ (1 : Fin 18) rfl, col_apply _ 2 _ (2 : Fin 18) rfl, col_apply _ 3 _ (3 : Fin 18) rfl, col_apply _ 4 _ (4 : Fin 18) rfl, col_apply _ 5 _ (5 : Fin 18) rfl, col_apply _ 6 _ (6 : Fin 18) rfl, col_apply _ 7 _ (7 : Fin 18) rfl, col_apply _ 8 _ (8 : Fin 18) rfl, col_apply _ 9 _ (9 : Fin 18) rfl, col_apply _ 10 _ (10 : Fin 18) rfl, col_apply _ 11 _ (11 : Fin 18) rfl, col_apply _ 12 _ (12 : Fin 18) rfl, col_apply _ 13 _ (13 : Fin 18) rfl, col_apply _ 14 _ (14 : Fin 18) rfl, col_apply _ 15 _ (15 : Fin 18) rfl, col_apply _ 16 _ (16 : Fin 18) rfl, col_apply _ 17 _ (17 : Fin 18) rfl]

/-- Entries 14 … 17 of the chain, stored as a [1, 128, 3136] block. -/
theorem pay1_apply (v15 : FVec Ideal S128x3136 .f32) (v20 : IVec S128x3136 32) (v22 v24 : FVec Ideal S128x18 .f32)
    (v147 : FVec Ideal S128x3136 .f32) (v148 v149 : FVec Ideal S128x1 .f32) (r : Fin 128) (j : Fin 3136) :
    k0_pay1 v15 v20 v22 v24 v147 v148 v149 (ix3 (0 : Fin 1) r j)
      = (Scalar.select (IntOp.cmpi .eq (v20 (ix2 r j)) 17#32) (v22 (ix2 r (17 : Fin 18)) + v15 (ix2 r j) * v24 (ix2 r (17 : Fin 18)))
      (Scalar.select (IntOp.cmpi .eq (v20 (ix2 r j)) 16#32) (v22 (ix2 r (16 : Fin 18)) + v15 (ix2 r j) * v24 (ix2 r (16 : Fin 18)))
      (Scalar.select (IntOp.cmpi .eq (v20 (ix2 r j)) 15#32) (v22 (ix2 r (15 : Fin 18)) + v15 (ix2 r j) * v24 (ix2 r (15 : Fin 18)))
      (Scalar.select (IntOp.cmpi .eq (v20 (ix2 r j)) 14#32) (v148 (ix2 r (0 : Fin 1)) + v15 (ix2 r j) * v149 (ix2 r (0 : Fin 1)))
      (v147 (ix2 r j)))))) := by
  unfold k0_pay1
  simp only [add1_apply, select_apply, addf_apply, mulf_apply, cmpi_apply, broadcast_apply, bcast_col_apply, col_apply _ 0 _ (0 : Fin 18) rfl, col_apply _ 1 _ (1 : Fin 18) rfl, col_apply _ 2 _ (2 : Fin 18) rfl, col_apply _ 3 _ (3 : Fin 18) rfl, col_apply _ 4 _ (4 : Fin 18) rfl, col_apply _ 5 _ (5 : Fin 18) rfl, col_apply _ 6 _ (6 : Fin 18) rfl, col_apply _ 7 _ (7 : Fin 18) rfl, col_apply _ 8 _ (8 : Fin 18) rfl, col_apply _ 9 _ (9 : Fin 18) rfl, col_apply _ 10 _ (10 : Fin 18) rfl, col_apply _ 11 _ (11 : Fin 18) rfl, col_apply _ 12 _ (12 : Fin 18) rfl, col_apply _ 13 _ (13 : Fin 18) rfl, col_apply _ 14 _ (14 : Fin 18) rfl, col_apply _ 15 _ (15 : Fin 18) rfl, col_apply _ 16 _ (16 : Fin 18) rfl, col_apply _ 17 _ (17 : Fin 18) rfl]

/-! ## The stored value at an index -/

/-- At row r and position j of the block the body stores the piecewise-linear unit's first way of the input element,
    the row's reciprocal and offset, and the row's left points and slopes. -/
theorem body0_apply (xfp xsl : Vec Ideal S128x18 .f32) (xaux : Vec Ideal S128x2 .f32) (xx : Vec Ideal S1x128x3136 .f32)
    (r : Fin 128) (j : Fin 3136) :
    body0 xfp xsl xaux xx (ix3 (0 : Fin 1) r j)
      = Cert.Pwlu.outKer (xx (ix3 (0 : Fin 1) r j)) (xaux (ix2 r (0 : Fin 2))) (xaux (ix2 r (1 : Fin 2)))
          (fun k => xfp (ix2 r k)) (fun k => xsl (ix2 r k)) := by
  unfold body0
  simp only [View.ld_unit_zero (S := S1x128x3136) hz3, View.ld_unit_zero (S := S128x18) hz2]
  rw [pay1_apply, pay14_apply, pay11_apply, pay8_apply]
  simp only [pay4_apply, pay5_apply, pay6_eq, pay7_eq, pay9_apply, pay10_apply, pay12_apply, pay13_apply, pay15_apply,
    pay16_apply]
  rw [ld_rA0, ld_rA1]
  unfold Cert.Pwlu.outKer Cert.Pwlu.chain18
  rfl

/-! ## What each point writes back -/

variable (m : (ℓ : Loc nD τ sig) → Buf (Elt Ideal) ℓ)

/-- The piecewise-linear unit of element (b, ch, j) of the input under channel ch's tables. -/
def pwluAt (c : Dev nD) (b : Fin 16) (ch : Fin 256) (j : Fin 3136) : EReal :=
  Cert.Pwlu.outKer (xarr m c (ix3 b ch j)) (auxarr m c (ix2 ch (0 : Fin 2))) (auxarr m c (ix2 ch (1 : Fin 2)))
    (fun k => fparr m c (ix2 ch k)) (fun k => slarr m c (ix2 ch k))

/-- The same as one [16, 256, 3136] array. -/
def pwluArr (c : Dev nD) : Vec Ideal S16x256x3136 .f32 := fun i => pwluAt m c (i 0) (i 1) (i 2)

/-- The five windows' block indices over the grid: at point (b, h) the three tables' blocks are at (h, 0), the input's
    and the result's at (b, h, 0). -/
theorem idx_facts : ∀ t : Fin cfg0.N,
    win0_0.index t (0 : Fin 2) = win0_4.index t (1 : Fin 3) ∧ win0_0.index t (1 : Fin 2) = 0
    ∧ win0_1.index t (0 : Fin 2) = win0_4.index t (1 : Fin 3) ∧ win0_1.index t (1 : Fin 2) = 0
    ∧ win0_2.index t (0 : Fin 2) = win0_4.index t (1 : Fin 3) ∧ win0_2.index t (1 : Fin 2) = 0
    ∧ win0_3.index t (0 : Fin 3) = win0_4.index t (0 : Fin 3) ∧ win0_3.index t (1 : Fin 3) = win0_4.index t (1 : Fin 3)
    ∧ win0_3.index t (2 : Fin 3) = 0
    ∧ win0_4.index t (0 : Fin 3) < 16 ∧ win0_4.index t (1 : Fin 3) < 2 ∧ win0_4.index t (2 : Fin 3) = 0 :=
  (by decide +kernel : ∀ t : Fin grid0.N, _)

/-- Every block of the result is some point's. -/
theorem idx_onto : ∀ (q0 : Fin 16) (q1 : Fin 2), ∃ t : Fin cfg0.N, win0_4.index t = ![q0.val, q1.val, 0] :=
  (by decide +kernel : ∀ (q0 : Fin 16) (q1 : Fin 2), ∃ t : Fin grid0.N, win0_4.index t = ![q0.val, q1.val, 0])

/-- Row r of the left-points table's block at a point is channel 128h + r of the table. -/
theorem iblk0_apply (c : Dev nD) (t : Fin cfg0.N) (r : Fin 128) (k : Fin 18) (ch : Fin 256)
    (hch : ch.val = win0_4.index t (1 : Fin 3) * 128 + r.val) :
    (iblk m c 0 t : Vec Ideal S128x18 .f32) (ix2 r k) = fparr m c (ix2 ch k) := by
  obtain ⟨e0, e1, -⟩ := idx_facts t
  unfold iblk
  rw [View.read_apply]
  show V m c main_v20 _ = V m c main_v20 _
  congr 1
  funext a
  apply Fin.ext
  match a with
  | ⟨0, _⟩ => show win0_0.index t (0 : Fin 2) * 128 + 1 * r.val = ch.val; omega
  | ⟨1, _⟩ => show win0_0.index t (1 : Fin 2) * 18 + 1 * k.val = k.val; omega

/-- Row r of the slopes table's block at a point is channel 128h + r of the table. -/
theorem iblk1_apply (c : Dev nD) (t : Fin cfg0.N) (r : Fin 128) (k : Fin 18) (ch : Fin 256)
    (hch : ch.val = win0_4.index t (1 : Fin 3) * 128 + r.val) :
    (iblk m c 1 t : Vec Ideal S128x18 .f32) (ix2 r k) = slarr m c (ix2 ch k) := by
  obtain ⟨-, -, e0, e1, -⟩ := idx_facts t
  unfold iblk
  rw [View.read_apply]
  show V m c main_v13 _ = V m c main_v13 _
  congr 1
  funext a
  apply Fin.ext
  match a with
  | ⟨0, _⟩ => show win0_1.index t (0 : Fin 2) * 128 + 1 * r.val = ch.val; omega
  | ⟨1, _⟩ => show win0_1.index t (1 : Fin 2) * 18 + 1 * k.val = k.val; omega

/-- Row r of the two-column table's block at a point is channel 128h + r of the table. -/
theorem iblk2_apply (c : Dev nD) (t : Fin cfg0.N) (r : Fin 128) (k : Fin 2) (ch : Fin 256)
    (hch : ch.val = win0_4.index t (1 : Fin 3) * 128 + r.val) :
    (iblk m c 2 t : Vec Ideal S128x2 .f32) (ix2 r k) = auxarr m c (ix2 ch k) := by
  obtain ⟨-, -, -, -, e0, e1, -⟩ := idx_facts t
  unfold iblk
  rw [View.read_apply]
  show V m c main_v27 _ = V m c main_v27 _
  congr 1
  funext a
  apply Fin.ext
  match a with
  | ⟨0, _⟩ => show win0_2.index t (0 : Fin 2) * 128 + 1 * r.val = ch.val; omega
  | ⟨1, _⟩ => show win0_2.index t (1 : Fin 2) * 2 + 1 * k.val = k.val; omega

/-- Element (0, r, j) of the input's block at a point is element (b, 128h + r, j) of the input. -/
theorem iblk3_apply (c : Dev nD) (t : Fin cfg0.N) (r : Fin 128) (j : Fin 3136) (b : Fin 16) (ch : Fin 256)
    (hb : b.val = win0_4.index t (0 : Fin 3)) (hch : ch.val = win0_4.index t (1 : Fin 3) * 128 + r.val) :
    (iblk m c 3 t : Vec Ideal S1x128x3136 .f32) (ix3 (0 : Fin 1) r j) = xarr m c (ix3 b ch j) := by
  obtain ⟨-, -, -, -, -, -, e0, e1, e2, -⟩ := idx_facts t
  unfold iblk
  rw [View.read_apply]
  show V m c main_v28 _ = V m c main_v28 _
  congr 1
  funext a
  apply Fin.ext
  match a with
  | ⟨0, _⟩ => show win0_3.index t (0 : Fin 3) * 1 + 1 * 0 = b.val; omega
  | ⟨1, _⟩ => show win0_3.index t (1 : Fin 3) * 128 + 1 * r.val = ch.val; omega
  | ⟨2, _⟩ => show win0_3.index t (2 : Fin 3) * 3136 + 1 * j.val = j.val; omega

/-- Element (0, r, j) of the result's block at a point sits at (b, 128h + r, j) of the result. -/
theorem emb4_eq (t : Fin cfg0.N) (r : Fin 128) (j : Fin 3136) (b : Fin 16) (ch : Fin 256)
    (hb : b.val = win0_4.index t (0 : Fin 3)) (hch : ch.val = win0_4.index t (1 : Fin 3) * 128 + r.val) :
    ((cfg0.win 4).blk t).view.emb (ix3 (0 : Fin 1) r j) = (ix3 b ch j : S16x256x3136.Idx) := by
  obtain ⟨-, -, -, -, -, -, -, -, -, -, -, e2⟩ := idx_facts t
  funext a
  apply Fin.ext
  match a with
  | ⟨0, _⟩ => show win0_4.index t (0 : Fin 3) * 1 + 1 * 0 = b.val; omega
  | ⟨1, _⟩ => show win0_4.index t (1 : Fin 3) * 128 + 1 * r.val = ch.val; omega
  | ⟨2, _⟩ => show win0_4.index t (2 : Fin 3) * 3136 + 1 * j.val = j.val; omega

/-- The value stored at an element of the block at a point is the whole-array function at that element's place. -/
theorem stored_at (c : Dev nD) (t : Fin cfg0.N) (y : S1x128x3136.Idx) :
    body0 (iblk m c 0 t) (iblk m c 1 t) (iblk m c 2 t) (iblk m c 3 t) y
      = pwluArr m c (((cfg0.win 4).blk t).view.emb y) := by
  obtain ⟨u, r, j, rfl⟩ : ∃ (u : Fin 1) (r : Fin 128) (j : Fin 3136), y = ix3 u r j := ⟨y 0, y 1, y 2, eq_ix3 y⟩
  obtain rfl : u = 0 := Subsingleton.elim _ _
  obtain ⟨-, -, -, -, -, -, -, -, -, l0, l1, -⟩ := idx_facts t
  have hb : (⟨win0_4.index t (0 : Fin 3), l0⟩ : Fin 16).val = win0_4.index t (0 : Fin 3) := rfl
  have hch : (⟨win0_4.index t (1 : Fin 3) * 128 + r.val, by omega⟩ : Fin 256).val
      = win0_4.index t (1 : Fin 3) * 128 + r.val := rfl
  refine (body0_apply (iblk m c 0 t) (iblk m c 1 t) (iblk m c 2 t) (iblk m c 3 t) r j).trans ?_
  rw [emb4_eq t r j _ _ hb hch, iblk3_apply m c t r j _ _ hb hch, iblk2_apply m c t r _ _ hch, iblk2_apply m c t r _ _ hch,
    funext fun k => iblk0_apply m c t r k _ hch, funext fun k => iblk1_apply m c t r k _ hch]
  rfl

/-- The result's blocks tile its array: what a write-back moves out of the staging buffer is all of it … -/
theorem cut4_apply (t : Fin cfg0.N) (X : S1x128x3136.Idx → EReal) (y : S1x128x3136.Idx) :
    (cfg0.win 4).cut (grid0.coords t) X y = X y := rfl

/-- … and an array read through the block at a point is the array at the place of the block's element. -/
theorem read_blk4_apply (t : Fin cfg0.N) (G : S16x256x3136.Idx → EReal) (y : S1x128x3136.Idx) :
    ((cfg0.win 4).blk t).view.read (Elt Ideal) G y = G (((cfg0.win 4).blk t).view.emb y) := rfl

/-- What point t writes back is block t of the whole-array function. -/
theorem flushed_eq (c : Dev nD) (t : Fin cfg0.N) :
    (dats m 0 c).flushed 4 t = ((cfg0.win 4).blk t).view.read (Elt Ideal) (pwluArr m c) := by
  show (cfg0.win 4).cut (grid0.coords t) ((dats m 0 c).after 4 t) = _
  rw [after0_4]
  unfold out0_4
  rw [View.canon_unit_zero hz3]
  funext y
  exact (cut4_apply t _ y).trans ((stored_at m c t y).trans (read_blk4_apply t (pwluArr m c) y).symm)

/-! ## From the blocks to the array -/

/-- An index of the result is in point t's block iff each coordinate is in the block's range on its axis. -/
theorem mem_blk (t : Fin cfg0.N) (i : S16x256x3136.Idx) :
    i ∈ ((cfg0.win 4).blk t).view.set ↔ ∀ a : Fin 3, win0_4.index t a * S1x128x3136.size a ≤ (i a).val
      ∧ (i a).val < win0_4.index t a * S1x128x3136.size a + S1x128x3136.size a := by
  show i ∈ ((View.whole main_v29).slice (win0_4.rect t)).set ↔ _
  rw [View.set_slice_whole, Rect.mem_set_unit]
  exact Iff.rfl

/-- Index (b, ch, j) lies in the block of point (b, ch / 128). -/
theorem cover (i : S16x256x3136.Idx) :
    ∃ t : Fin cfg0.N, (cfg0.win 4).flush t = true ∧ i ∈ ((cfg0.win 4).blk t).view.set := by
  have hi0 : (i 0).val < 16 := (i 0).isLt
  have hi1 : (i 1).val < 256 := (i 1).isLt
  have hi2 : (i 2).val < 3136 := (i 2).isLt
  obtain ⟨t, ht⟩ := idx_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 3136 ≤ (i 2).val ∧ (i 2).val < win0_4.index t (2 : Fin 3) * 3136 + 3136
    omega

/-- The result array after the region is the whole-array function. -/
theorem outarr_eq (c : Dev nD) : outarr m c = pwluArr m c :=
  (dats m 0 c).arrAt_eq_of_cover 4 (pwluArr m c) (fun t _ => flushed_eq m c t) cover

/-- THE RESULT, index by index: element (b, ch, j) is the piecewise-linear unit's first way of the input element under
    channel ch's reciprocal, offset, left points and slopes. -/
theorem outarr_apply (c : Dev nD) (b : Fin 16) (ch : Fin 256) (j : Fin 3136) :
    outarr m c (ix3 b ch j)
      = Cert.Pwlu.outKer (xarr m c (ix3 b ch j)) (auxarr m c (ix2 ch (0 : Fin 2))) (auxarr m c (ix2 ch (1 : Fin 2)))
          (fun k => fparr m c (ix2 ch k)) (fun k => slarr m c (ix2 ch k)) :=
  congrFun (outarr_eq m c) (ix3 b ch j)

end Cert.KernelIdeal.Fr

end
-- ==== Proof.KI.Host.lean ====
/-
  What @main's operations before and after the region compute, as values.

  Before the region @main fills, from the argument arrays alone, the four arrays the region stages: the input reshaped
  to [16, 256, 3136], the two-column table (reciprocal, offset), the left-points table and the slopes table. Each is
  the pure term of the arguments written down beside the arrays' names: the fold of the thirty operations, read at
  the array's reference, is that term. After the region one reshape turns the result array [16, 256, 3136] back into
  [16, 256, 56, 56].

  The second half reads the tables one entry at a time on the extended reals: the region length and the simulated left
  bound of a channel, the two columns of the two-column table as the reciprocal and the offset of the piecewise-linear
  unit, and the two reshapes as the row-major correspondence (h, w) ↦ 56 h + w.
-/
import proofs.«423696_j36790689857763_3_alg».proof.Proof.KI.Arrays
import proofs.«423696_j36790689857763_3_alg».proof.Proof.LibNary3
import proofs.«423696_j36790689857763_3_alg».proof.Proof.Spec
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe
open Idealize.ShloMosaic.StableHlo
open Idealize.SL.Sem

/-- The fold of a literal list of host operations read at a reference: each operation's result at its own reference
    is its function of its operands' contents, at any other reference what was there; a three-operand operation is
    read operand by operand. -/
local macro "host_results" : tactic =>
  `(tactic| (simp only [after_cons, after_nil]
             repeat (first
               | rw [nullary_result] | rw [unary_result] | rw [binary_result] | rw [reshape_result]
               | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

section Generic

variable {F : FTy → Type} [FloatOps F]
variable (m : (ℓ : Loc nD τ sig) → Buf (Elt F) ℓ)

/-- The staged input is the argument reshaped to [16, 256, 3136]. -/
theorem xarr_eq (c : Dev nD) :
    xarr m c = shapeCast S16x256x3136 (a0 m c) shapeCasts_S16x256x56x56_S16x256x3136 := by
  show StableHlo.after hostOps0 (fun b => m (c, b)) (Proc.devRef .tc main_v28) = _
  host_results
  rfl

/-- The staged two-column table is the table of the bounds. -/
theorem auxarr_eq (c : Dev nD) : auxarr m c = auxT (a2 m c) := by
  show StableHlo.after hostOps0 (fun b => m (c, b)) (Proc.devRef .tc main_v27) = _
  host_results
  rfl

/-- The staged left-points table is the table of the points, the bounds and the left slopes. -/
theorem fparr_eq (c : Dev nD) : fparr m c = fpT (a1 m c) (a2 m c) (a3 m c) := by
  show StableHlo.after hostOps0 (fun b => m (c, b)) (Proc.devRef .tc main_v20) = _
  host_results
  rfl

/-- The staged slopes table is the table of the points, the bounds and the two slope vectors. -/
theorem slarr_eq (c : Dev nD) : slarr m c = slT (a1 m c) (a2 m c) (a3 m c) (a4 m c) := by
  show StableHlo.after hostOps0 (fun b => m (c, b)) (Proc.devRef .tc main_v13) = _
  host_results
  rfl

/-- The program's result is the result array reshaped to [16, 256, 56, 56]. -/
theorem result_eq (c : Dev nD) :
    (Pipeline.afterTail₀ cfgs (dats m) 0 (V0 m) [hostOps1] c main_v30 : FVec F S16x256x56x56 .f32)
      = shapeCast S16x256x56x56 (outarr m c) shapeCasts_S16x256x3136_S16x256x56x56 := by
  unfold Pipeline.afterTail₀
  show StableHlo.after hostOps1 _ (Proc.devRef .tc main_v30) = _
  host_results
  exact congrArg (fun a : FVec F S16x256x3136 .f32 => shapeCast S16x256x56x56 a shapeCasts_S16x256x3136_S16x256x56x56)
    (Pipeline.withArrays_arr spec0 winFacts0.arr_inj c (V0 m c) (fun w => (dats m 0 c).arrAt w cfg0.N) 4)

end Generic

section Entries

open Idealize.ShloMosaic.ValueIdx

/-- The left bound of a channel: column 0 of the bounds. -/
theorem lbT_apply (x2 : FVec Ideal S256x2 .f32) (ch : Fin 256) : lbT x2 (ix1 ch) = x2 (ix2 ch (0 : Fin 2)) := by
  unfold lbT
  refine (shapeCast_apply _ shapeCasts_S256x1_S256 (ix1 ch) (ix2 ch (0 : Fin 1)) ?_).trans ?_
  · rewrite [Shape.rowMajor_val_two, Shape.rowMajor_val_one]
    show ch.val * 1 + 0 = ch.val
    omega
  · exact extractStridedSlice_apply ![0, 0] x2 slices_S256x2_S256x1_0_0 (ix2 ch (0 : Fin 1)) (ix2 ch (0 : Fin 2))
      (fun a => match a with
        | ⟨0, _⟩ => by show ch.val = 0 + ch.val; omega
        | ⟨1, _⟩ => by show 0 = 0 + 0; omega)

/-- The right bound of a channel: column 1 of the bounds. -/
theorem rbT_apply (x2 : FVec Ideal S256x2 .f32) (ch : Fin 256) : rbT x2 (ix1 ch) = x2 (ix2 ch (1 : Fin 2)) := by
  unfold rbT
  refine (shapeCast_apply _ shapeCasts_S256x1_S256 (ix1 ch) (ix2 ch (0 : Fin 1)) ?_).trans ?_
  · rewrite [Shape.rowMajor_val_two, Shape.rowMajor_val_one]
    show ch.val * 1 + 0 = ch.val
    omega
  · exact extractStridedSlice_apply ![0, 1] x2 slices_S256x2_S256x1_0_1 (ix2 ch (0 : Fin 1)) (ix2 ch (1 : Fin 2))
      (fun a => match a with
        | ⟨0, _⟩ => by show ch.val = 0 + ch.val; omega
        | ⟨1, _⟩ => by show 1 = 1 + 0; omega)

/-- The region length of a channel: right bound minus left bound. -/
theorem rlT_apply (x2 : FVec Ideal S256x2 .f32) (ch : Fin 256) :
    rlT x2 (ix1 ch) = x2 (ix2 ch (1 : Fin 2)) - x2 (ix2 ch (0 : Fin 2)) := by
  unfold rlT
  rw [subf_apply, rbT_apply, lbT_apply]

/-- The simulated left bound of a channel: the left bound moved one region length to the left. -/
theorem sLT_apply (x2 : FVec Ideal S256x2 .f32) (ch : Fin 256) :
    sLT x2 (ix1 ch) = x2 (ix2 ch 0) - (x2 (ix2 ch 1) - x2 (ix2 ch 0)) := by
  unfold sLT
  rw [subf_apply, lbT_apply, rlT_apply]

/-- The reciprocal of a channel's region length. -/
theorem invT_apply (x2 : FVec Ideal S256x2 .f32) (ch : Fin 256) :
    invT x2 (ix1 ch) = Cert.Pwlu.invRl (rlT x2 (ix1 ch)) := by
  unfold invT Cert.Pwlu.invRl Cert.Pwlu.cOne
  show FloatOps.hostDivf _ _ = _
  rw [Ideal.hostDivf_def]
  rfl

/-- The offset of a channel: minus the simulated left bound, times the reciprocal. -/
theorem offT_apply (x2 : FVec Ideal S256x2 .f32) (ch : Fin 256) :
    offT x2 (ix1 ch) = Cert.Pwlu.off2 (sLT x2 (ix1 ch)) (rlT x2 (ix1 ch)) := by
  unfold offT Cert.Pwlu.off2
  rw [mulf_apply, invT_apply]
  show FloatOps.hostNegf _ * _ = _
  rw [Ideal.hostNegf_def, Ideal.negf_def]

/-- Column 0 of the two-column table is the reciprocal. -/
theorem auxT_0 (x2 : FVec Ideal S256x2 .f32) (ch : Fin 256) :
    auxT x2 (ix2 ch (0 : Fin 2)) = Cert.Pwlu.invRl (rlT x2 (ix1 ch)) := by
  unfold auxT
  refine (concatenate_pair_apply_left (t := S256x2) (s₁ := S256x1) (s₂ := S256x1) (1 : Fin 2) _ _ concatenates_S256x1_S256x1_S256x2_d1 (ix2 ch (0 : Fin 2)) rfl
    (ix2 ch (0 : Fin 1)) (fun b => match b with
      | ⟨0, _⟩ => rfl
      | ⟨1, _⟩ => rfl)).trans ?_
  refine (broadcastInDim_apply _ bcast_S256_S256x1_0 _ (ix2 ch (0 : Fin 1)) (ix1 ch) (fun a => match a with
    | ⟨0, _⟩ => by show ch.val = if (256 : Nat) = 1 then 0 else ch.val; rw [if_neg (by decide)])).trans ?_
  exact invT_apply x2 ch

/-- Column 1 of the two-column table is the offset. -/
theorem auxT_1 (x2 : FVec Ideal S256x2 .f32) (ch : Fin 256) :
    auxT x2 (ix2 ch (1 : Fin 2)) = Cert.Pwlu.off2 (sLT x2 (ix1 ch)) (rlT x2 (ix1 ch)) := by
  unfold auxT
  refine (concatenate_pair_apply_right (t := S256x2) (s₁ := S256x1) (s₂ := S256x1) (1 : Fin 2) _ _ concatenates_S256x1_S256x1_S256x2_d1 (ix2 ch (1 : Fin 2)) rfl rfl
    (ix2 ch (0 : Fin 1)) (fun b => match b with
      | ⟨0, _⟩ => fun _ => rfl
      | ⟨1, _⟩ => fun h => absurd rfl h) rfl).trans ?_
  refine (broadcastInDim_apply _ bcast_S256_S256x1_0 _ (ix2 ch (0 : Fin 1)) (ix1 ch) (fun a => match a with
    | ⟨0, _⟩ => by show ch.val = if (256 : Nat) = 1 then 0 else ch.val; rw [if_neg (by decide)])).trans ?_
  exact offT_apply x2 ch

/-- The staged input at (b, channel, 56 h + w) is the argument at (b, channel, h, w). -/
theorem xarr_apply (m : (ℓ : Loc nD τ sig) → Buf (Elt Ideal) ℓ) (c : Dev nD) (b : Fin 16) (ch : Fin 256) (h w : Fin 56) :
    xarr m c (ix3 b ch ⟨h.val * 56 + w.val, by omega⟩) = a0 m c (ix4 b ch h w) := by
  refine (congrFun (xarr_eq m c) _).trans ?_
  refine shapeCast_apply (a0 m c) shapeCasts_S16x256x56x56_S16x256x3136 (ix3 b ch ⟨h.val * 56 + w.val, _⟩) (ix4 b ch h w) ?_
  rewrite [Shape.rowMajor_val_four, Shape.rowMajor_val_three]
  show ((b.val * 256 + ch.val) * 56 + h.val) * 56 + w.val = (b.val * 256 + ch.val) * 3136 + (h.val * 56 + w.val)
  omega

/-- The program's result at (b, channel, h, w) is the result array at (b, channel, 56 h + w). -/
theorem result_apply (m : (ℓ : Loc nD τ sig) → Buf (Elt Ideal) ℓ) (c : Dev nD) (b : Fin 16) (ch : Fin 256) (h w : Fin 56) :
    (Pipeline.afterTail₀ cfgs (dats m) 0 (V0 m) [hostOps1] c main_v30 : FVec Ideal S16x256x56x56 .f32) (ix4 b ch h w)
      = outarr m c (ix3 b ch ⟨h.val * 56 + w.val, by omega⟩) := by
  refine (congrFun (result_eq m c) (ix4 b ch h w)).trans ?_
  refine shapeCast_apply (outarr m c) shapeCasts_S16x256x3136_S16x256x56x56 (ix4 b ch h w) (ix3 b ch ⟨h.val * 56 + w.val, _⟩) ?_
  rewrite [Shape.rowMajor_val_three, Shape.rowMajor_val_four]
  show (b.val * 256 + ch.val) * 3136 + (h.val * 56 + w.val) = ((b.val * 256 + ch.val) * 56 + h.val) * 56 + w.val
  omega

end Entries

end Cert.KernelIdeal.Fr

end
-- ==== Proof.RefTake.lean ====
/-
  The reference's take-along-axis, read at an index: its `stablehlo.gather` (one batching axis, one collapsed and
  start-indexed axis) and its guard's `stablehlo.reduce` by `and` over a last axis of extent one.
-/
import proofs.«423696_j36790689857763_3_alg».proof.ReferenceIdeal
import proofs.«423696_j36790689857763_3_alg».proof.Proof.Gen.ReferenceIdeal
import Idealize.ShloMosaic.Lib.ValueIdx
import Idealize.ShloMosaic.PureOps.Reduce

namespace Cert.ReferenceIdeal.RefTake

open Idealize.ShloMosaic Idealize.ShloMosaic.ValueIdx Cert.ReferenceIdeal Cert.ReferenceIdeal.Gen

/-! ## The gather

Operand `[256, 18]`, start indices `[256, 50176, 1]`, result `[256, 50176]`. Operand axis 0 is a batching axis paired
with the start indices' axis 0: its start is 0, its offset coordinate 0, and its batching coordinate the result's
coordinate on its first batch axis, `ch`. Operand axis 1 is collapsed and is the one axis the start index map names:
its batching and offset coordinates are 0 and its start is the start index `idx[ch, p, 0]`, read signed and clamped
into `[0, 18 - 1]`. -/

/-- The gather at `(ch, p)`: the operand's row `ch` at the column `idx[ch, p, 0]` read signed and clamped into `[0, 17]`. -/
theorem gather_apply {α : Type} (x : S256x18.Idx → α) (idx : IVec S256x50176x1 32) (ch : Fin 256) (p : Fin 50176) :
    Host.gather gather_S256x18_S256x50176x1_S256x50176_n_1_0_0_1_2_11 x idx (ix2 ch p)
      = x (ix2 ch ⟨min (idx (ix3 ch p (0 : Fin 1))).toInt.toNat 17, by omega⟩) := by
  unfold Host.gather
  congr 1
  funext a
  refine Fin.ext ?_
  match a with
  | ⟨0, _⟩ =>
    -- the batching axis: start 0, offset coordinate 0, batching coordinate the result's first coordinate
    show gather_S256x18_S256x50176x1_S256x50176_n_1_0_0_1_2_11.start (ix2 ch p) idx 0
        + gather_S256x18_S256x50176x1_S256x50176_n_1_0_0_1_2_11.batchCoord (ix2 ch p) 0
        + gather_S256x18_S256x50176x1_S256x50176_n_1_0_0_1_2_11.offCoord (ix2 ch p) 0 = ch.val
    have hb : (0 : Fin S256x18.rank) ∈ gather_S256x18_S256x50176x1_S256x50176_n_1_0_0_1_2_11.operandBatchingDims :=
      List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    -- the collapsed, start-indexed axis: batching and offset coordinates 0, start the clamped start index
    show gather_S256x18_S256x50176x1_S256x50176_n_1_0_0_1_2_11.start (ix2 ch p) idx 1
        + gather_S256x18_S256x50176x1_S256x50176_n_1_0_0_1_2_11.batchCoord (ix2 ch p) 1
        + gather_S256x18_S256x50176x1_S256x50176_n_1_0_0_1_2_11.offCoord (ix2 ch p) 1 = _
    have hm : (1 : Fin S256x18.rank) ∈ gather_S256x18_S256x50176x1_S256x50176_n_1_0_0_1_2_11.startIndexMap :=
      List.mem_singleton.mpr rfl
    have hc : (1 : Fin S256x18.rank) ∈ gather_S256x18_S256x50176x1_S256x50176_n_1_0_0_1_2_11.collapsedSliceDims :=
      List.mem_singleton.mpr rfl
    have hnb : (1 : Fin S256x18.rank) ∉ gather_S256x18_S256x50176x1_S256x50176_n_1_0_0_1_2_11.operandBatchingDims := by
      intro h; exact absurd (List.mem_singleton.mp h) (by decide)
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S256x18_S256x50176x1_S256x50176_n_1_0_0_1_2_11.siIdx (ix2 ch p)
        ⟨List.idxOf (1 : Fin S256x18.rank) gather_S256x18_S256x50176x1_S256x50176_n_1_0_0_1_2_11.startIndexMap,
          List.idxOf_lt_length_iff.2 hm⟩ = ix3 ch p (0 : Fin 1) := by
      funext b; refine Fin.ext ?_
      match b with
      | ⟨0, _⟩ => rfl
      | ⟨1, _⟩ => rfl
      | ⟨2, _⟩ => rfl
    rw [hsi]
    rfl

/-! ## The guard's reduce

`stablehlo.reduce` by `and` over the last axis, of extent 1: the only operand index that drops to `(ch, p)` is
`(ch, p, 0)`, so the fold from the initial value meets that one element. -/

/-- The reduced index `(ch, p)` with the coordinate `k` of the dropped last axis put back is `(ch, p, 0)`: that axis
    has extent 1. -/
private theorem lift_ix3 (h : S256x50176x1.Reduces [2] S256x50176) (ch : Fin 256) (p : Fin 50176)
    (k : Fin (S256x50176x1.size (2 : Fin 3))) : h.lift (ix2 ch p) k = ix3 ch p (0 : Fin 1) := by
  have hk : k.val = 0 := by have := k.isLt; change k.val < 1 at this; omega
  funext c; refine Fin.ext ?_
  rw [h.lift_val, hk]
  match c with
  | ⟨0, _⟩ => rfl
  | ⟨1, _⟩ => rfl
  | ⟨2, _⟩ => rfl

/-- A fold over the one coordinate of an axis of extent 1 combines the one element with the initial value. -/
private theorem fold_univ_one {n : Nat} (hn : n = 1) (f : Fin n → BitVec 1) (b : BitVec 1) :
    (Finset.univ : Finset (Fin n)).fold IntOp.andi b f = IntOp.andi (f ⟨0, by omega⟩) b := by
  subst hn
  rw [Finset.univ_unique, Finset.fold_singleton]
  rfl

/-- The reduce at `(ch, p)`, for any evidence of its two side conditions: the initial value's element `and` the
    operand's element at `(ch, p, 0)`. -/
theorem reduce_and_apply_of (v : IVec S256x50176x1 1) (init : IVec S_ 1) (h' : S256x50176x1.ReducesTo [2] S256x50176)
    (hu : 0 < S_.numel) (ch : Fin 256) (p : Fin 50176) :
    Host.reduce IntOp.andi v init h' hu (ix2 ch p) = IntOp.andi (init ix0) (v (ix3 ch p (0 : Fin 1))) := by
  have h : S256x50176x1.Reduces [2] S256x50176 := by decide
  rw [Host.reduce_eq_fold_single IntOp.andi v init h' h hu]
  refine (fold_univ_one (by rfl) _ _).trans ?_
  rw [Std.Commutative.comm (op := IntOp.andi)]
  show IntOp.andi (init (Shape.Idx.first hu)) (v (h.lift (ix2 ch p) _)) = _
  rw [lift_ix3, eq_ix0 (Shape.Idx.first hu)]

/-- The reduce at `(ch, p)` with the program's own evidence. -/
theorem reduce_and_apply (v : IVec S256x50176x1 1) (init : IVec S_ 1) (ch : Fin 256) (p : Fin 50176) :
    Host.reduce IntOp.andi v init reducesTo_S256x50176x1_S256x50176_d2 h_S_ (ix2 ch p)
      = IntOp.andi (init ix0) (v (ix3 ch p (0 : Fin 1))) :=
  reduce_and_apply_of v init _ _ ch p

/-- From the initial value 1 (the constant `true`) the reduce at `(ch, p)` is the operand's element at `(ch, p, 0)`. -/
theorem reduce_and_apply_of_one (v : IVec S256x50176x1 1) (init : IVec S_ 1) (hinit : init ix0 = 1#1) (ch : Fin 256)
    (p : Fin 50176) :
    Host.reduce IntOp.andi v init reducesTo_S256x50176x1_S256x50176_d2 h_S_ (ix2 ch p) = v (ix3 ch p (0 : Fin 1)) := by
  rw [reduce_and_apply, hinit]
  generalize v (ix3 ch p (0 : Fin 1)) = b
  revert b; decide

end Cert.ReferenceIdeal.RefTake
-- ==== Proof.RefValue.lean ====
/-
  The reference program's result, read at one index.

  The stages of the reference (one per operation, in program order) are composed from the result downwards: the last
  transpose, the sum `fp[region] + distance · sl[region]`, the two reshapes of the lookups back to `[256, 16, 56, 56]`,
  each lookup (a select between the gathered table entry and a fill, under the guard "the wrapped index lies in the
  table"), the index word (the floor of the clamped normalised position times 17, converted to a word and reshaped to
  `[256, 50176]`), and the normalised position `(x - sL) / (17 · rl)`. At the index `(b, ch, h, w)` the composition is
  the scalar function `Cert.Pwlu.outRef` of the element `x0[b, ch, h, w]`, the channel's simulated left bound and
  region length, and the channel's rows of the two tables (which stay opaque).
-/
import proofs.«423696_j36790689857763_3_alg».proof.Proof.RefRead
import proofs.«423696_j36790689857763_3_alg».proof.Proof.RefTake
import proofs.«423696_j36790689857763_3_alg».proof.Proof.Spec

noncomputable section

namespace Cert.ReferenceIdeal.RefVal

open Cert.ReferenceIdeal Cert.ReferenceIdeal.Gen Cert.ReferenceIdeal.ReadP Cert.ReferenceIdeal.RefTake Idealize.ShloMosaic Idealize.ShloMosaic.ValueIdx

/-! ## The guard of a lookup

The reference guards each lookup by "the wrapped index lies in the table": the conjunction of `0 ≤ j` and `j ≤ 17`
(both signed), reduced by AND over an axis of extent 1 from the initial value true. -/

/-- The guard of the lookup, as a function of the wrapped index. -/
def mkR (j : BitVec 32) : BitVec 1 :=
  IntOp.andi 1#1 (IntOp.andi (IntOp.cmpi .sge j 0#32) (IntOp.cmpi .sle j 17#32))

/-- An index between 0 and 17 passes the guard. -/
theorem mkR_spec : ∀ j : BitVec 32, 0 ≤ j.toInt → j.toInt ≤ 17 → mkR j = 1#1 := by
  intro j h0 h17
  have h1 : (0#32 : BitVec 32).sle j = true := BitVec.sle_iff_toInt_le.mpr (by simpa using h0)
  have h2 : j.sle 17#32 = true := BitVec.sle_iff_toInt_le.mpr (by
    have e : (17#32 : BitVec 32).toInt = 17 := by decide
    rw [e]; exact h17)
  unfold mkR IntOp.andi IntOp.cmpi
  simp only [h1, h2]
  decide

/-! ## Positions

The flat position of `(b, h, w)` in a row of `16 · 56 · 56` elements, and the index equations: the reshapes between
`[256, 16, 56, 56]` and `[256, 50176]` and the transposes, at explicit coordinates. -/

/-- The flat position `(b · 56 + h) · 56 + w`. -/
def flat (b : Fin 16) (h w : Fin 56) : Fin 50176 :=
  ⟨(b.val * 56 + h.val) * 56 + w.val, by have := b.isLt; have := h.isLt; have := w.isLt; omega⟩

theorem idx46 (b : Fin 16) (ch : Fin 256) (h w : Fin 56) : idx_main_v46 (ix4 b ch h w) = ix4 ch b h w := by
  funext a
  match a with
  | ⟨0, _⟩ => rfl
  | ⟨1, _⟩ => rfl
  | ⟨2, _⟩ => rfl
  | ⟨3, _⟩ => rfl

theorem idx24 (b : Fin 16) (ch : Fin 256) (h w : Fin 56) : idx_main_v24 (ix4 ch b h w) = ix4 b h w ch := by
  funext a
  match a with
  | ⟨0, _⟩ => rfl
  | ⟨1, _⟩ => rfl
  | ⟨2, _⟩ => rfl
  | ⟨3, _⟩ => rfl

theorem idx15 (b : Fin 16) (ch : Fin 256) (h w : Fin 56) : idx_main_v15 (ix4 b h w ch) = ix4 b ch h w := by
  funext a
  match a with
  | ⟨0, _⟩ => rfl
  | ⟨1, _⟩ => rfl
  | ⟨2, _⟩ => rfl
  | ⟨3, _⟩ => rfl

theorem idx1617 (b : Fin 16) (ch : Fin 256) (h w : Fin 56) :
    idx_main_v16 (idx_main_v17 (ix4 b h w ch)) = ix1 ch := by
  funext a
  match a with
  | ⟨0, _⟩ => rfl

theorem idx2122 (b : Fin 16) (ch : Fin 256) (h w : Fin 56) :
    idx_main_v21 (idx_main_v22 (ix4 b h w ch)) = ix1 ch := by
  funext a
  match a with
  | ⟨0, _⟩ => rfl

theorem idx42 (b : Fin 16) (ch : Fin 256) (h w : Fin 56) : idx_main_v42 (ix4 ch b h w) = ix2 ch (flat b h w) := by
  have h0 := ch.isLt
  have h1 := b.isLt
  have h2 := h.isLt
  have h3 := w.isLt
  funext a
  match a with
  | ⟨0, _⟩ =>
    exact Fin.ext (by
      show (((ch.val * 16 + b.val) * 56 + h.val) * 56 + w.val) / 50176 = ch.val
      omega)
  | ⟨1, _⟩ =>
    exact Fin.ext (by
      show (((ch.val * 16 + b.val) * 56 + h.val) * 56 + w.val) % 50176 = (b.val * 56 + h.val) * 56 + w.val
      omega)

theorem idx43 (b : Fin 16) (ch : Fin 256) (h w : Fin 56) : idx_main_v43 (ix4 ch b h w) = ix2 ch (flat b h w) := by
  have h0 := ch.isLt
  have h1 := b.isLt
  have h2 := h.isLt
  have h3 := w.isLt
  funext a
  match a with
  | ⟨0, _⟩ =>
    exact Fin.ext (by
      show (((ch.val * 16 + b.val) * 56 + h.val) * 56 + w.val) / 50176 = ch.val
      omega)
  | ⟨1, _⟩ =>
    exact Fin.ext (by
      show (((ch.val * 16 + b.val) * 56 + h.val) * 56 + w.val) % 50176 = (b.val * 56 + h.val) * 56 + w.val
      omega)

theorem idx33 (b : Fin 16) (ch : Fin 256) (h w : Fin 56) : idx_main_v33 (ix2 ch (flat b h w)) = ix4 ch b h w := by
  have h0 := ch.isLt
  have h1 := b.isLt
  have h2 := h.isLt
  have h3 := w.isLt
  funext a
  match a with
  | ⟨0, _⟩ =>
    exact Fin.ext (by
      show (ch.val * 50176 + ((b.val * 56 + h.val) * 56 + w.val)) / 50176 = ch.val
      omega)
  | ⟨1, _⟩ =>
    exact Fin.ext (by
      show (ch.val * 50176 + ((b.val * 56 + h.val) * 56 + w.val)) / 3136 % 16 = b.val
      omega)
  | ⟨2, _⟩ =>
    exact Fin.ext (by
      show (ch.val * 50176 + ((b.val * 56 + h.val) * 56 + w.val)) / 56 % 56 = h.val
      omega)
  | ⟨3, _⟩ =>
    exact Fin.ext (by
      show (ch.val * 50176 + ((b.val * 56 + h.val) * 56 + w.val)) % 56 = w.val
      omega)

theorem idx5_1 (ch : Fin 256) (p : Fin 50176) : idx_main_call1_v5 (ix3 ch p (0 : Fin 1)) = ix2 ch p := by
  have h0 := ch.isLt
  have h1 := p.isLt
  funext a
  match a with
  | ⟨0, _⟩ =>
    exact Fin.ext (by
      show ((ch.val * 50176 + p.val) * 1 + (0 : Fin 1).val) / 50176 = ch.val
      have h2 : (0 : Fin 1).val = 0 := rfl
      omega)
  | ⟨1, _⟩ =>
    exact Fin.ext (by
      show ((ch.val * 50176 + p.val) * 1 + (0 : Fin 1).val) % 50176 = p.val
      have h2 : (0 : Fin 1).val = 0 := rfl
      omega)

theorem idx5_2 (ch : Fin 256) (p : Fin 50176) : idx_main_call2_v5 (ix3 ch p (0 : Fin 1)) = ix2 ch p := by
  have h0 := ch.isLt
  have h1 := p.isLt
  funext a
  match a with
  | ⟨0, _⟩ =>
    exact Fin.ext (by
      show ((ch.val * 50176 + p.val) * 1 + (0 : Fin 1).val) / 50176 = ch.val
      have h2 : (0 : Fin 1).val = 0 := rfl
      omega)
  | ⟨1, _⟩ =>
    exact Fin.ext (by
      show ((ch.val * 50176 + p.val) * 1 + (0 : Fin 1).val) % 50176 = p.val
      have h2 : (0 : Fin 1).val = 0 := rfl
      omega)

/-! ## The normalised position, its region and the index word -/

/-- The normalised position at `(ch, b, h, w)`: the element minus the channel's simulated left bound, over 17 region
    lengths. -/
theorem xn_apply (x0 : FVec Ideal S16x256x56x56 .f32) (x2 : FVec Ideal S256x2 .f32)
    (b : Fin 16) (ch : Fin 256) (h w : Fin 56) :
    val_main_v24 (F := Ideal) x0 x2 (ix4 ch b h w)
      = Cert.Pwlu.xnRef (x0 (ix4 b ch h w)) (val_main_v14 (F := Ideal) x2 (ix1 ch)) (val_main_v4 (F := Ideal) x2 (ix1 ch)) := by
  rw [val_main_v24_apply, idx24, val_main_v23_apply, val_main_v18_apply, val_main_v15_apply, idx15, val_main_v17_apply,
    val_main_v16_apply, idx1617, val_main_v22_apply, val_main_v21_apply, idx2122, val_main_v20_apply, val_main_v19_apply,
    val_main_cst_apply]
  rfl

/-- The region, as an extended real, is the floor of the clamped position times 17. -/
theorem reg_apply (x0 : FVec Ideal S16x256x56x56 .f32) (x2 : FVec Ideal S256x2 .f32) (i : S256x16x56x56.Idx) :
    val_main_v28 (F := Ideal) x0 x2 i = Cert.Pwlu.regRef (val_main_v24 (F := Ideal) x0 x2 i) := by
  rw [val_main_v28_apply, val_main_v27_apply, val_main_v25_apply, val_main_call0_v4_apply, val_main_call0_v3_apply,
    val_main_cst_1_apply, val_main_call0_v2_apply, val_main_call0_v1_apply, val_main_call0_v0_apply, val_main_cst_0_apply,
    val_main_v26_apply, val_main_cst_2_apply]
  rfl

/-- The index word at the flat position is the region converted to a word. -/
theorem idxword_apply (x0 : FVec Ideal S16x256x56x56 .f32) (x2 : FVec Ideal S256x2 .f32)
    (b : Fin 16) (ch : Fin 256) (h w : Fin 56) :
    val_main_v33 (F := Ideal) x0 x2 (ix2 ch (flat b h w))
      = Cert.Pwlu.idxRef (val_main_v24 (F := Ideal) x0 x2 (ix4 ch b h w)) := by
  rw [val_main_v33_apply, idx33, val_main_v32_apply, reg_apply]
  rfl

/-! ## The two lookups -/

/-- The gather at a start index known to be `j`. -/
theorem gather_at {α : Type} (x : S256x18.Idx → α) (idx : IVec S256x50176x1 32) (ch : Fin 256) (p : Fin 50176)
    (j : BitVec 32) (hj : idx (ix3 ch p (0 : Fin 1)) = j) :
    Host.gather gather_S256x18_S256x50176x1_S256x50176_n_1_0_0_1_2_11 x idx (ix2 ch p)
      = x (ix2 ch ⟨min j.toInt.toNat 17, by omega⟩) := by
  subst hj
  exact gather_apply x idx ch p

/-- First lookup: the start index is the wrapped index word. -/
theorem wrap1 (x0 : FVec Ideal S16x256x56x56 .f32) (x2 : FVec Ideal S256x2 .f32) (ch : Fin 256) (p : Fin 50176) :
    val_main_call1_v5 (F := Ideal) x0 x2 (ix3 ch p (0 : Fin 1))
      = Cert.Pwlu.wrapIdx (val_main_v33 (F := Ideal) x0 x2 (ix2 ch p)) := by
  rw [val_main_call1_v5_apply, idx5_1, val_main_call1_v4_apply, val_main_call1_v1_apply, val_main_call1_v3_apply,
    val_main_call1_v0_apply, val_main_call1_c_apply, val_main_call1_v2_apply, val_main_call1_c_0_apply]
  rfl

/-- Second lookup: the same. -/
theorem wrap2 (x0 : FVec Ideal S16x256x56x56 .f32) (x2 : FVec Ideal S256x2 .f32) (ch : Fin 256) (p : Fin 50176) :
    val_main_call2_v5 (F := Ideal) x0 x2 (ix3 ch p (0 : Fin 1))
      = Cert.Pwlu.wrapIdx (val_main_v33 (F := Ideal) x0 x2 (ix2 ch p)) := by
  rw [val_main_call2_v5_apply, idx5_2, val_main_call2_v4_apply, val_main_call2_v1_apply, val_main_call2_v3_apply,
    val_main_call2_v0_apply, val_main_call2_c_apply, val_main_call2_v2_apply, val_main_call2_c_0_apply]
  rfl

/-- First lookup: the guard is `mkR` of the wrapped index word. -/
theorem guard1 (x0 : FVec Ideal S16x256x56x56 .f32) (x2 : FVec Ideal S256x2 .f32) (ch : Fin 256) (p : Fin 50176) :
    val_main_call1_v12 (F := Ideal) x0 x2 (ix2 ch p)
      = mkR (Cert.Pwlu.wrapIdx (val_main_v33 (F := Ideal) x0 x2 (ix2 ch p))) := by
  unfold val_main_call1_v12
  rw [reduce_and_apply, val_main_call1_c_3_apply, val_main_call1_v11_apply, val_main_call1_v7_apply,
    val_main_call1_v10_apply, wrap1, val_main_call1_v6_apply, val_main_call1_c_2_apply, val_main_call1_v9_apply,
    val_main_call1_v8_apply, val_main_call1_c_1_apply]
  rfl

/-- Second lookup: the same. -/
theorem guard2 (x0 : FVec Ideal S16x256x56x56 .f32) (x2 : FVec Ideal S256x2 .f32) (ch : Fin 256) (p : Fin 50176) :
    val_main_call2_v12 (F := Ideal) x0 x2 (ix2 ch p)
      = mkR (Cert.Pwlu.wrapIdx (val_main_v33 (F := Ideal) x0 x2 (ix2 ch p))) := by
  unfold val_main_call2_v12
  rw [reduce_and_apply, val_main_call2_c_3_apply, val_main_call2_v11_apply, val_main_call2_v7_apply,
    val_main_call2_v10_apply, wrap2, val_main_call2_v6_apply, val_main_call2_c_2_apply, val_main_call2_v9_apply,
    val_main_call2_v8_apply, val_main_call2_c_1_apply]
  rfl

/-- The first lookup at `(ch, p)` is the guarded lookup in the channel's row of the first table. -/
theorem take1 (x0 : FVec Ideal S16x256x56x56 .f32) (x1 : FVec Ideal S256x17 .f32) (x2 : FVec Ideal S256x2 .f32)
    (x3 : FVec Ideal S256 .f32) (ch : Fin 256) (p : Fin 50176) :
    val_main_v40 (F := Ideal) x0 x1 x2 x3 (ix2 ch p)
      = Cert.Pwlu.takeRef mkR (fun k => val_main_v39 (F := Ideal) x1 x2 x3 (ix2 ch k))
          (val_main_v33 (F := Ideal) x0 x2 (ix2 ch p)) := by
  rw [val_main_v40_apply, guard1, val_main_call1_v14_apply, val_main_call1_cst_apply]
  unfold val_main_call1_v13
  rw [gather_at _ _ ch p _ (wrap1 x0 x2 ch p)]
  rfl

/-- The second lookup at `(ch, p)` is the guarded lookup in the channel's row of the second table. -/
theorem take2 (x0 : FVec Ideal S16x256x56x56 .f32) (x1 : FVec Ideal S256x17 .f32) (x2 : FVec Ideal S256x2 .f32)
    (x3 x4 : FVec Ideal S256 .f32) (ch : Fin 256) (p : Fin 50176) :
    val_main_v41 (F := Ideal) x0 x1 x2 x3 x4 (ix2 ch p)
      = Cert.Pwlu.takeRef mkR (fun k => val_main_v13 (F := Ideal) x1 x2 x3 x4 (ix2 ch k))
          (val_main_v33 (F := Ideal) x0 x2 (ix2 ch p)) := by
  rw [val_main_v41_apply, guard2, val_main_call2_v14_apply, val_main_call2_cst_apply]
  unfold val_main_call2_v13
  rw [gather_at _ _ ch p _ (wrap2 x0 x2 ch p)]
  rfl

/-! ## The result at one index -/

/-- The reference's result at `(b, ch, h, w)` is the second way's scalar function of the element, the channel's
    simulated left bound and region length, and the channel's rows of the two tables. -/
theorem ref_apply (x0 : FVec Ideal S16x256x56x56 .f32) (x1 : FVec Ideal S256x17 .f32) (x2 : FVec Ideal S256x2 .f32)
    (x3 x4 : FVec Ideal S256 .f32) (b : Fin 16) (ch : Fin 256) (h w : Fin 56) :
    val_main_v46 (F := Ideal) x0 x1 x2 x3 x4 (ix4 b ch h w)
      = Cert.Pwlu.outRef mkR (x0 (ix4 b ch h w)) (val_main_v14 (F := Ideal) x2 (ix1 ch))
          (val_main_v4 (F := Ideal) x2 (ix1 ch))
          (fun k => val_main_v39 (F := Ideal) x1 x2 x3 (ix2 ch k))
          (fun k => val_main_v13 (F := Ideal) x1 x2 x3 x4 (ix2 ch k)) := by
  rw [val_main_v46_apply, idx46, val_main_v45_apply, val_main_v44_apply, val_main_v42_apply, idx42, val_main_v43_apply,
    idx43, take1, take2, val_main_v31_apply, val_main_v30_apply, val_main_v29_apply, val_main_cst_3_apply, reg_apply,
    idxword_apply, xn_apply]
  rfl

end Cert.ReferenceIdeal.RefVal

end
-- ==== Proof.PreFacts.lean ====
/-
  The printed precondition, read back at the extended reals. The predicate is the conjunction of six one-bit
  scalars: for each of the five input arrays, "every entry has absolute value below +∞", and for the [256, 2] bounds
  array, "column 1 minus column 0 differs from zero at every row". An extended real whose absolute value
  max x (−x) is below ⊤ is neither ⊤ nor ⊥, hence a real number; a reduction by "and" that comes out 1 met a 1 at
  every index; and the two columns, each cut out as a [256, 1] slice and reshaped to a vector, read at row ch the
  entries (ch, 1) and (ch, 0) of the array.
-/
import proofs.«423696_j36790689857763_3_alg».proof.Pre_finite_inputs
import proofs.«423696_j36790689857763_3_alg».proof.Proof.Gen.Pre_finite_inputs
import Idealize.ShloMosaic.Lib.ValueIdx
import Idealize.ShloMosaic.Lib.ReduceAll
import Idealize.ShloMosaic.Lib.Pipeline.Value
import Idealize.ShloMosaic.PureOps.Ideal.Laws

noncomputable section

namespace Cert.PreFacts

open Cert.Pre_finite_inputs Cert.Pre_finite_inputs.Gen Idealize.ShloMosaic

/-- A Boolean written as a one-bit word is the word 1 exactly when it is true. -/
theorem ofBool_eq_one (b : Bool) : BitVec.ofBool b = 1#1 ↔ b = true := by cases b <;> decide

/-- The pattern 0x7F800000 (sign clear, exponent all ones, fraction zero) denotes +∞. -/
theorem ofBits_inf : Ideal.ofBits .f32 0x7F800000#32 = (⊤ : EReal) := by simp [Ideal.ofBits, Ideal.ieee]

/-- |x| < +∞ makes x a real number: at ⊥ and at ⊤ the absolute value max x (−x) is ⊤. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  have h' : max x (-x) < ⊤ := of_decide_eq_true h
  induction x using EReal.rec with
  | bot => simp at h'
  | coe r => exact ⟨r, rfl⟩
  | top => simp at h'

/-- The comparison "not equal" that comes out 1 says its operands differ. -/
theorem ne_of_une (a b : EReal) (h : Ideal.cmp .une a b = 1#1) : a ≠ b := by
  unfold Ideal.cmp at h
  rw [ofBool_eq_one] at h
  exact of_decide_eq_true h

/-- The conjunction of two one-bit scalars, read at the scalar shape's one index, is 1 exactly when both are. -/
theorem and_split (a b : IVec S_ 1) (e : andi a b ValueIdx.ix0 = 1#1) : a ValueIdx.ix0 = 1#1 ∧ b ValueIdx.ix0 = 1#1 :=
  IntOp.andi_eq_one.1 e

/-- Column `c` of the [256, 2] bounds array, cut out as the [256, 1] slice at offset (0, c) and reshaped to a vector,
    reads at `ch` the array's entry (ch, c): the vector's position ch is row-major position ch · 1 + 0 of the slice,
    and the slice's entry (ch, 0) is the array's entry (0 + ch, c + 0). -/
theorem col_read (x2 : FVec Ideal S256x2 .f32) (ch : Fin 256) (c : Fin 2) (o : Nat) (ho : o = c.val)
    (hs : S256x2.Slices ![0, o] S256x1) (hc : S256x1.ShapeCasts S256) :
    shapeCast S256 (extractStridedSlice S256x1 ![0, o] x2 hs) hc (ValueIdx.ix1 ch) = x2 (ValueIdx.ix2 ch c) := by
  subst ho
  rw [shapeCast_apply _ hc (ValueIdx.ix1 ch) (ValueIdx.ix2 ch (0 : Fin 1))
    (by rewrite [Shape.rowMajor_val_two, Shape.rowMajor_val_one]; show ch.val * 1 + 0 = ch.val; omega)]
  exact extractStridedSlice_apply ![0, c.val] x2 hs (ValueIdx.ix2 ch (0 : Fin 1)) (ValueIdx.ix2 ch c) (fun a => match a with
    | ⟨0, _⟩ => by show ch.val = 0 + ch.val; omega
    | ⟨1, _⟩ => by show c.val = c.val + 0; omega)

/-- The scalar shape has one index. -/
instance : Subsingleton S_.Idx := ⟨fun a b => funext fun d => d.elim0⟩

/-- What the precondition says of its arguments: every entry of the data array and of the bounds array is a real
    number, and on every row of the bounds array the upper bound minus the lower bound is not zero. The predicate's
    value at the scalar index is a conjunction nested to the left; its six conjuncts are split off from the outside
    in, three of them read back through their reductions, and the last read at row `ch` through the two columns. -/
theorem pre_decode (x0 : FVec Ideal S16x256x56x56 .f32) (x1 : FVec Ideal S256x17 .f32) (x2 : FVec Ideal S256x2 .f32) (x3 x4 : FVec Ideal S256 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal))
      ∧ (∀ ch : Fin 256, x2 (ValueIdx.ix2 ch (1 : Fin 2)) - x2 (ValueIdx.ix2 ch (0 : Fin 2)) ≠ 0) := by
  have h0 := congrFun h ValueIdx.ix0
  dsimp only [Cert.Pre_finite_inputs.fn, Cert.Pre_finite_inputs.fn_part1] at h0
  obtain ⟨h5, hd⟩ := and_split _ _ h0
  obtain ⟨h4, hx4⟩ := and_split _ _ h5
  obtain ⟨h3, hx3⟩ := and_split _ _ h4
  obtain ⟨h2, hx2⟩ := and_split _ _ h3
  obtain ⟨hx0, hx1⟩ := and_split _ _ h2
  have a0 := Host.reduce_andi_all _ _ _ _ _ hx0
  have a2 := Host.reduce_andi_all _ _ _ _ _ hx2
  have d := Host.reduce_andi_all _ _ _ _ _ hd
  refine ⟨fun i => real_of_abs_lt_inf (x0 i) (a0 i), fun i => real_of_abs_lt_inf (x2 i) (a2 i), fun ch => ?_⟩
  have e := ne_of_une _ _ (d (ValueIdx.ix1 ch))
  rw [ValueIdx.subf_apply, col_read x2 ch 1 1 rfl, col_read x2 ch 0 0 rfl] at e
  intro hz
  exact e (hz.trans Ideal.ofBits_zero_f32.symm)

end Cert.PreFacts
-- ==== Proof.Algebraic.lean ====
/-
  The two idealized programs compute one function of the argument arrays.

  Both programs prepare the same per-channel quantities from the bounds, the points and the two slope vectors — the
  region length, the simulated left bound, the table of 18 left points, the table of 18 slopes — by the same operations
  in the same order, so those are literally the same terms on both sides. At an element (b, ch, h, w) the kernel's
  result is the first way of `Proof/Spec.lean` (reciprocal, offset, a chain of selects) and the reference's the second
  (quotient, clamp of the normalised position, guarded lookup), of the same input element, the same channel quantities
  and the same two table rows. Under the precondition the input element and the two bounds of the channel are real
  numbers and the region length is not zero, and there the two ways agree (`Cert.Pwlu.scalar_eq`).
-/
import proofs.«423696_j36790689857763_3_alg».proof.Defs
import proofs.«423696_j36790689857763_3_alg».proof.Proof.KI.Run
import proofs.«423696_j36790689857763_3_alg».proof.Proof.KI.Value
import proofs.«423696_j36790689857763_3_alg».proof.Proof.KI.Host
import proofs.«423696_j36790689857763_3_alg».proof.Proof.RefValue
import proofs.«423696_j36790689857763_3_alg».proof.Proof.PreFacts
import proofs.«423696_j36790689857763_3_alg».proof.Proof.Gen.Pre_finite_inputs

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Fr

/-! ## The per-channel quantities are the same terms in both programs -/

theorem rlT_eq (x2 : FVec Ideal S256x2 .f32) : rlT (F := Ideal) x2 = Cert.ReferenceIdeal.ReadP.val_main_v4 (F := Ideal) x2 := rfl
theorem sLT_eq (x2 : FVec Ideal S256x2 .f32) : sLT (F := Ideal) x2 = Cert.ReferenceIdeal.ReadP.val_main_v14 (F := Ideal) x2 := rfl
theorem fpT_eq (x1 : FVec Ideal S256x17 .f32) (x2 : FVec Ideal S256x2 .f32) (x3 : FVec Ideal S256 .f32) :
    fpT (F := Ideal) x1 x2 x3 = Cert.ReferenceIdeal.ReadP.val_main_v39 (F := Ideal) x1 x2 x3 := rfl
theorem slT_eq (x1 : FVec Ideal S256x17 .f32) (x2 : FVec Ideal S256x2 .f32) (x3 x4 : FVec Ideal S256 .f32) :
    slT (F := Ideal) x1 x2 x3 x4 = Cert.ReferenceIdeal.ReadP.val_main_v13 (F := Ideal) x1 x2 x3 x4 := rfl

/-! ## The results agree -/

variable (m : (ℓ : Loc nD τ sig) → Buf (Elt Ideal) ℓ)

/-- Under the precondition, the reference's result stage of the kernel program's argument arrays is the kernel
    program's result buffer, element by element. -/
theorem ref_eq_result (hpre : Cert.Pre_KernelIdeal (hPre_finite_inputs := Cert.Pre_finite_inputs.Gen.facts) m) (c : Dev nD) :
    Cert.ReferenceIdeal.ReadP.val_main_v46 (F := Ideal) (a0 m c) (a1 m c) (a2 m c) (a3 m c) (a4 m c)
      = (Pipeline.afterTail₀ cfgs (dats m) 0 (V0 m) [hostOps1] c main_v30 : FVec Ideal S16x256x56x56 .f32) := by
  obtain ⟨hx0, hx2, hrl⟩ := Cert.PreFacts.pre_decode (a0 m c) (a1 m c) (a2 m c) (a3 m c) (a4 m c) (hpre c)
  funext i
  obtain ⟨b, ch, h, w, rfl⟩ : ∃ (b : Fin 16) (ch : Fin 256) (h w : Fin 56), i = ix4 b ch h w := ⟨i 0, i 1, i 2, i 3, eq_ix4 i⟩
  rw [Cert.ReferenceIdeal.RefVal.ref_apply, result_apply, outarr_apply, xarr_apply, auxarr_eq, auxT_0, auxT_1, fparr_eq, slarr_eq,
    ← rlT_eq, ← sLT_eq, ← fpT_eq, ← slT_eq]
  obtain ⟨x, hx⟩ := hx0 (ix4 b ch h w)
  obtain ⟨L, hL⟩ := hx2 (ix2 ch (0 : Fin 2))
  obtain ⟨R, hR⟩ := hx2 (ix2 ch (1 : Fin 2))
  have hrlv : rlT (a2 m c) (ix1 ch) = ((R - L : ℝ) : EReal) := by
    rw [rlT_apply, hL, hR, EReal.coe_sub]
  have hsLv : sLT (a2 m c) (ix1 ch) = ((L - (R - L) : ℝ) : EReal) := by
    rw [sLT_apply, hL, hR, EReal.coe_sub, EReal.coe_sub]
  have hne : (R - L : ℝ) ≠ 0 := by
    have h0 := hrl ch
    rw [hL, hR, ← EReal.coe_sub] at h0
    exact_mod_cast h0
  rw [hx, hrlv, hsLv]
  exact Cert.Pwlu.scalar_eq Cert.ReferenceIdeal.RefVal.mkR Cert.ReferenceIdeal.RefVal.mkR_spec x (L - (R - L)) (R - L) hne _ _

end Cert.Proof.Alg

end
-- ==== Proof.lean ====
/-
  A channelwise piecewise-linear unit: the kernel program and its idealization against the reference.

  Each of the 256 channels carries 17 points over an interval [left, right], a left and a right slope. With the region
  length `rl = right − left`, an input element `x` of the channel lies `t = (x − (left − rl)) / rl` region lengths to the
  right of the simulated left bound; its region is `⌊t⌋` clamped into 0 … 17 (region 0 the left tail, 17 the right
  tail), and the result is the region's left point plus the distance `t − ⌊clamp t⌋` times the region's slope.

  The kernel program prepares the left points, the slopes, the reciprocal `1/rl` and the offset `−(left − rl)/rl` per
  channel, and runs one region over a 16 × 2 grid of [128 channels × 3136 positions] blocks whose body computes
  `t = x · (1/rl) + offset`, clamps it between 0 and a bound a little above 17, floors, and picks the two table
  entries by a chain of 18 selects. The reference divides by `17 · rl`, clamps the normalised position between 0 and a
  bound a little above 1, multiplies by 17, floors, and looks the two entries up by index.

  Frames: every execution of each program terminates without fault and leaves the five argument arrays as they were
  (`Proof/K/Frame.lean`, `Proof/KI/Frame.lean` for the two kernel programs; the reference's run for the reference).
  The idealization rewrote no operation, so what it preserves is nothing. Equivalence over the extended reals, under
  the precondition that every input is finite and no region length is zero (where a region length is zero the
  reference itself divides by zero): the input element and the channel's bounds are then real numbers, the two
  positions `t` are the same real, both upper clamps lie strictly between 17 and 18 so the floors agree, and the two
  lookups read the same entries of the same tables (`Proof/Spec.lean`, `Proof/Algebraic.lean`).
-/
import proofs.«423696_j36790689857763_3_alg».proof.Defs
import proofs.«423696_j36790689857763_3_alg».proof.Proof.Gen.Kernel
import proofs.«423696_j36790689857763_3_alg».proof.Proof.Gen.KernelIdeal
import proofs.«423696_j36790689857763_3_alg».proof.Proof.Gen.ReferenceIdeal
import proofs.«423696_j36790689857763_3_alg».proof.Proof.Gen.Pre_finite_inputs
import proofs.«423696_j36790689857763_3_alg».proof.Proof.K.Frame
import proofs.«423696_j36790689857763_3_alg».proof.Proof.KI.Run
import proofs.«423696_j36790689857763_3_alg».proof.Proof.RefRun
import proofs.«423696_j36790689857763_3_alg».proof.Proof.RefRead
import proofs.«423696_j36790689857763_3_alg».proof.Proof.Algebraic
import Idealize.ShloMosaic.Adequacy
import Idealize.ShloMosaic.Init

noncomputable section

namespace Cert.Proof

open Idealize.ShloMosaic Idealize.ShloMosaic.TcCoe Idealize.SL.Sem

/-- The kernel program terminates and leaves its arguments. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- So does the reference: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, under the precondition, the two idealized programs end with the same
    result: the kernel's result buffer, which the reference's result stage equals element by element. -/
theorem algebraic : Cert.algebraic_KernelIdeal_ReferenceIdeal := by
  intro m ρ m' ρ' hpre hagree
  refine ⟨fun c => Pipeline.afterTail₀ Cert.KernelIdeal.cfgs (Cert.KernelIdeal.Fr.dats m) 0 (Cert.KernelIdeal.Fr.V0 m)
      [Cert.KernelIdeal.Gen.hostOps1] c Cert.KernelIdeal.main_v30, Cert.KernelIdeal.Fr.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2.1, (hagree c).2.2.2.1,
    (hagree c).2.2.2.2]
  exact Cert.Proof.Alg.ref_eq_result m hpre c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
